-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v28)) (v1 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_v29) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x320000 : Shape := ⟨2, ![16, 320000]⟩
abbrev S1025x2048 : Shape := ⟨2, ![1025, 2048]⟩
abbrev S_ : Shape := ⟨0, ![]⟩

class Facts : Prop where
  bcast_S_S16x320000 : S_.BroadcastsInDim S16x320000 (![] : Fin 0 → Fin S16x320000.rank)
  reducesTo_S16x320000_S_d0_1 : S16x320000.ReducesTo [0, 1] S_
  h_S_ : 0 < S_.numel
  bcast_S_S1025x2048 : S_.BroadcastsInDim S1025x2048 (![] : Fin 0 → Fin S1025x2048.rank)
  reducesTo_S1025x2048_S_d0_1 : S1025x2048.ReducesTo [0, 1] S_

variable [Facts]

def fn {F : FTy → Type} [FloatOps F] (main_arg0 : FVec F S16x320000 .f32) (main_arg1 : FVec F S1025x2048 .f32) (main_arg2 : FVec F S1025x2048 .f32) : IVec S_ 1 :=
  let main_v0 : FVec F S16x320000 .f32 := Host.absf main_arg0
  let main_cst : FVec F S_ .f32 := constant S_ .f32 0x7F800000#32
  let main_v1 : FVec F S16x320000 .f32 := broadcastInDim S16x320000 ![] bcast_S_S16x320000 main_cst
  let main_v2 : IVec S16x320000 1 := cmpf .olt main_v0 main_v1
  let main_c : IVec S_ 1 := constantI S_ 1 1#1
  let main_v3 : IVec S_ 1 := (fun x v => Host.reduce IntOp.andi x v reducesTo_S16x320000_S_d0_1 h_S_) main_v2 main_c
  let main_v4 : FVec F S1025x2048 .f32 := Host.absf main_arg1
  let main_cst_0 : FVec F S_ .f32 := constant S_ .f32 0x7F800000#32
  let main_v5 : FVec F S1025x2048 .f32 := broadcastInDim S1025x2048 ![] bcast_S_S1025x2048 main_cst_0
  let main_v6 : IVec S1025x2048 1 := cmpf .olt main_v4 main_v5
  let main_c_1 : IVec S_ 1 := constantI S_ 1 1#1
  let main_v7 : IVec S_ 1 := (fun x v => Host.reduce IntOp.andi x v reducesTo_S1025x2048_S_d0_1 h_S_) main_v6 main_c_1
  let main_v8 : IVec S_ 1 := andi main_v3 main_v7
  let main_v9 : FVec F S1025x2048 .f32 := Host.absf main_arg2
  let main_cst_2 : FVec F S_ .f32 := constant S_ .f32 0x7F800000#32
  let main_v10 : FVec F S1025x2048 .f32 := broadcastInDim S1025x2048 ![] bcast_S_S1025x2048 main_cst_2
  let main_v11 : IVec S1025x2048 1 := cmpf .olt main_v9 main_v10
  let main_c_3 : IVec S_ 1 := constantI S_ 1 1#1
  let main_v12 : IVec S_ 1 := (fun x v => Host.reduce IntOp.andi x v reducesTo_S1025x2048_S_d0_1 h_S_) main_v11 main_c_3
  let main_v13 : IVec S_ 1 := andi main_v8 main_v12
  main_v13
-- ==== Kernel.lean ====
abbrev S16x320000 : Shape := ⟨2, ![16, 320000]⟩
abbrev S1025x2048 : Shape := ⟨2, ![1025, 2048]⟩
abbrev S_ : Shape := ⟨0, ![]⟩
abbrev S16x1 : Shape := ⟨2, ![16, 1]⟩
abbrev S16x1024 : Shape := ⟨2, ![16, 1024]⟩
abbrev S16x321024 : Shape := ⟨2, ![16, 321024]⟩
abbrev S16x322048 : Shape := ⟨2, ![16, 322048]⟩
abbrev S626 : Shape := ⟨1, ![626]⟩
abbrev S626x1 : Shape := ⟨2, ![626, 1]⟩
abbrev S2048 : Shape := ⟨1, ![2048]⟩
abbrev S1x2048 : Shape := ⟨2, ![1, 2048]⟩
abbrev S626x2048 : Shape := ⟨2, ![626, 2048]⟩
abbrev S626x2048x1 : Shape := ⟨3, ![626, 2048, 1]⟩
abbrev S16x626x2048 : Shape := ⟨3, ![16, 626, 2048]⟩
abbrev S10016x2048 : Shape := ⟨2, ![10016, 2048]⟩
abbrev S10240x2048 : Shape := ⟨2, ![10240, 2048]⟩
abbrev S2048x1025 : Shape := ⟨2, ![2048, 1025]⟩
abbrev S2048x2050 : Shape := ⟨2, ![2048, 2050]⟩
abbrev S10240x2050 : Shape := ⟨2, ![10240, 2050]⟩
abbrev S512x512 : Shape := ⟨2, ![512, 512]⟩
abbrev S512x2050 : Shape := ⟨2, ![512, 2050]⟩
abbrev S10016x2050 : Shape := ⟨2, ![10016, 2050]⟩
abbrev S10016x1025 : Shape := ⟨2, ![10016, 1025]⟩
abbrev S16x626x1025 : Shape := ⟨3, ![16, 626, 1025]⟩
abbrev S16x1x626x1025 : Shape := ⟨4, ![16, 1, 626, 1025]⟩

abbrev nBuf : Space → Nat
  | .hbm => 46
  | .vmem => 7
  | .smem => 0
  | _ => 0

abbrev bufTy : (tb : Table) → Fin (tcTables nBuf tb) → BufTy
  | .hbm, ⟨0, _⟩ => ⟨S16x320000, .f32⟩
  | .hbm, ⟨1, _⟩ => ⟨S1025x2048, .f32⟩
  | .hbm, ⟨2, _⟩ => ⟨S1025x2048, .f32⟩
  | .hbm, ⟨3, _⟩ => ⟨S_, .i32⟩
  | .hbm, ⟨4, _⟩ => ⟨S16x1, .f32⟩
  | .hbm, ⟨5, _⟩ => ⟨S16x1024, .f32⟩
  | .hbm, ⟨6, _⟩ => ⟨S16x1024, .f32⟩
  | .hbm, ⟨7, _⟩ => ⟨S16x321024, .f32⟩
  | .hbm, ⟨8, _⟩ => ⟨S16x1, .f32⟩
  | .hbm, ⟨9, _⟩ => ⟨S16x1024, .f32⟩
  | .hbm, ⟨10, _⟩ => ⟨S16x1024, .f32⟩
  | .hbm, ⟨11, _⟩ => ⟨S16x322048, .f32⟩
  | .hbm, ⟨12, _⟩ => ⟨S626, .i32⟩
  | .hbm, ⟨13, _⟩ => ⟨S626x1, .i32⟩
  | .hbm, ⟨14, _⟩ => ⟨S_, .i32⟩
  | .hbm, ⟨15, _⟩ => ⟨S626x1, .i32⟩
  | .hbm, ⟨16, _⟩ => ⟨S626x1, .i32⟩
  | .hbm, ⟨17, _⟩ => ⟨S2048, .i32⟩
  | .hbm, ⟨18, _⟩ => ⟨S1x2048, .i32⟩
  | .hbm, ⟨19, _⟩ => ⟨S626x2048, .i32⟩
  | .hbm, ⟨20, _⟩ => ⟨S626x2048, .i32⟩
  | .hbm, ⟨21, _⟩ => ⟨S626x2048, .i32⟩
  | .hbm, ⟨22, _⟩ => ⟨S_, .i32⟩
  | .hbm, ⟨23, _⟩ => ⟨S626x2048, .i32⟩
  | .hbm, ⟨24, _⟩ => ⟨S626x2048, .i1⟩
  | .hbm, ⟨25, _⟩ => ⟨S_, .i32⟩
  | .hbm, ⟨26, _⟩ => ⟨S626x2048, .i32⟩
  | .hbm, ⟨27, _⟩ => ⟨S626x2048, .i32⟩
  | .hbm, ⟨28, _⟩ => ⟨S626x2048, .i32⟩
  | .hbm, ⟨29, _⟩ => ⟨S626x2048x1, .i32⟩
  | .hbm, ⟨30, _⟩ => ⟨S16x626x2048, .f32⟩
  | .hbm, ⟨31, _⟩ => ⟨S10016x2048, .f32⟩
  | .hbm, ⟨32, _⟩ => ⟨S_, .i32⟩
  | .hbm, ⟨33, _⟩ => ⟨S_, .f32⟩
  | .hbm, ⟨34, _⟩ => ⟨S10240x2048, .f32⟩
  | .hbm, ⟨35, _⟩ => ⟨S2048x1025, .f32⟩
  | .hbm, ⟨36, _⟩ => ⟨S2048x1025, .f32⟩
  | .hbm, ⟨37, _⟩ => ⟨S2048x2050, .f32⟩
  | .hbm, ⟨38, _⟩ => ⟨S10240x2050, .f32⟩
  | .hbm, ⟨39, _⟩ => ⟨S10016x2050, .f32⟩
  | .hbm, ⟨40, _⟩ => ⟨S10016x1025, .f32⟩
  | .hbm, ⟨41, _⟩ => ⟨S16x626x1025, .f32⟩
  | .hbm, ⟨42, _⟩ => ⟨S10016x1025, .f32⟩
  | .hbm, ⟨43, _⟩ => ⟨S16x626x1025, .f32⟩
  | .hbm, ⟨44, _⟩ => ⟨S16x1x626x1025, .f32⟩
  | .hbm, ⟨45, _⟩ => ⟨S16x1x626x1025, .f32⟩
  | .local _ .vmem, ⟨0, _⟩ => ⟨S512x512, .f32⟩
  | .local _ .vmem, ⟨1, _⟩ => ⟨S512x512, .f32⟩
  | .local _ .vmem, ⟨2, _⟩ => ⟨S512x2050, .f32⟩
  | .local _ .vmem, ⟨3, _⟩ => ⟨S512x2050, .f32⟩
  | .local _ .vmem, ⟨4, _⟩ => ⟨S512x2050, .f32⟩
  | .local _ .vmem, ⟨5, _⟩ => ⟨S512x2050, .f32⟩
  | .local _ .vmem, ⟨6, _⟩ => ⟨S512x2050, .f32⟩
  | _, _ => ⟨S16x320000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c_1 : Ref sig .tc := ⟨.hbm, 22, rfl⟩
abbrev main_v10 : Ref sig .tc := ⟨.hbm, 23, rfl⟩
abbrev main_v11 : Ref sig .tc := ⟨.hbm, 24, rfl⟩
abbrev main_c_2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_call1_v0 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![20, 4], ![false, false]⟩

def k0_cond2 (i : grid0.Coords) : BitVec 1 :=
  let arg1 : BitVec 32 := BitVec.ofNat 32 (i 1).val
  let c3_i32 : BitVec 32 := 3#32
  let v15 : BitVec 1 := Scalar.cmpi .eq arg1 c3_i32
  let v16 : BitVec 32 := Scalar.extui v15
  let c0_i32_8 : BitVec 32 := 0#32
  let v17 : BitVec 1 := Scalar.cmpi .ne v16 c0_i32_8
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2050 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2050 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  slices_S16x320000_S16x1_0_0 : S16x320000.Slices ![0, 0] S16x1
  slices_S16x320000_S16x1024_0_1 : S16x320000.Slices ![0, 1] S16x1024
  concatenates_S16x1024_S16x320000_S16x321024_d1 : Shape.Concatenates [S16x1024, S16x320000] S16x321024 1
  slices_S16x321024_S16x1_0_321023 : S16x321024.Slices ![0, 321023] S16x1
  slices_S16x321024_S16x1024_0_319999 : S16x321024.Slices ![0, 319999] S16x1024
  concatenates_S16x321024_S16x1024_S16x322048_d1 : Shape.Concatenates [S16x321024, S16x1024] S16x322048 1
  bcast_S626_S626x1_0 : S626.BroadcastsInDim S626x1 (![0] : Fin 1 → Fin S626x1.rank)
  bcast_S_S626x1 : S_.BroadcastsInDim S626x1 (![] : Fin 0 → Fin S626x1.rank)
  bcast_S2048_S1x2048_1 : S2048.BroadcastsInDim S1x2048 (![1] : Fin 1 → Fin S1x2048.rank)
  bcast_S626x1_S626x2048_0_1 : S626x1.BroadcastsInDim S626x2048 (![0, 1] : Fin 2 → Fin S626x2048.rank)
  bcast_S1x2048_S626x2048_0_1 : S1x2048.BroadcastsInDim S626x2048 (![0, 1] : Fin 2 → Fin S626x2048.rank)
  bcast_S_S626x2048 : S_.BroadcastsInDim S626x2048 (![] : Fin 0 → Fin S626x2048.rank)
  bcast_S626x2048_S626x2048x1_0_1 : S626x2048.BroadcastsInDim S626x2048x1 (![0, 1] : Fin 2 → Fin S626x2048x1.rank)
  shapeCasts_S16x626x2048_S10016x2048 : S16x626x2048.ShapeCasts S10016x2048
  pads_S10016x2048_S10240x2048_02240_000 : S10016x2048.Pads (![0, 0] : Fin 2 → Nat) ![224, 0] ![0, 0] S10240x2048
  h_S_ : 0 < S_.numel
  transposes_S1025x2048_S2048x1025_1_0 : S1025x2048.Transposes [1, 0] S2048x1025
  concatenates_S2048x1025_S2048x1025_S2048x2050_d1 : Shape.Concatenates [S2048x1025, S2048x1025] S2048x2050 1
  inb_S512x2050_S512x2050_0_0 : ∀ a, (![0, 0] : Fin 2 → Nat) a + S512x2050.size a ≤ S512x2050.size a
  h_S512x2050 : 0 < S512x2050.numel
  shapeCasts_S512x2050_S512x2050 : S512x2050.ShapeCasts S512x2050
  inb_S512x512_S512x512_0_0 : ∀ a, (![0, 0] : Fin 2 → Nat) a + S512x512.size a ≤ S512x512.size a
  h_S512x512 : 0 < S512x512.numel
  shapeCasts_S512x512_S512x512 : S512x512.ShapeCasts S512x512
  bitsLt_bf16_f32 : FTy.bits .bf16 < FTy.bits .f32
  slices_S10240x2050_S10016x2050_0_0 : S10240x2050.Slices ![0, 0] S10016x2050
  slices_S10016x2050_S10016x1025_0_0 : S10016x2050.Slices ![0, 0] S10016x1025
  shapeCasts_S10016x1025_S16x626x1025 : S10016x1025.ShapeCasts S16x626x1025
  slices_S10016x2050_S10016x1025_0_1025 : S10016x2050.Slices ![0, 1025] S10016x1025
  bcast_S16x626x1025_S16x1x626x1025_0_2_3 : S16x626x1025.BroadcastsInDim S16x1x626x1025 (![0, 2, 3] : Fin 3 → Fin S16x1x626x1025.rank)
  gather_S16x322048_S626x2048x1_S16x626x2048_0_1_n_n_1_2_161_wf : GatherDims.WF S16x322048 S626x2048x1 S16x626x2048 [0] [1] [] [1] [] 2 ![16, 1]
  dot_S512x512_S512x2050_S512x2050_1_0_0_1_n_n_wf : DotDims.WF S512x512 S512x2050 S512x2050 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S10240x2048.size a
  hwx0_0 : ∀ i : grid0.Coords, EltTy.bits .f32 = 32 ∨ (Rect.block (s := S10240x2048) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2050.size a ≤ S2048x2050.size a
  hwx0_1 : ∀ i : grid0.Coords, EltTy.bits .f32 = 32 ∨ (Rect.block (s := S2048x2050) S512x2050.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2050.size a ≤ S10240x2050.size a
  hwx0_2 : ∀ i : grid0.Coords, EltTy.bits .f32 = 32 ∨ (Rect.block (s := S10240x2050) S512x2050.size (cc0_transform_2 i) (hinb0_2 i)).WholeWords (EltTy.packing .f32)

variable [Facts₀]

def gather_S16x322048_S626x2048x1_S16x626x2048_0_1_n_n_1_2_161 : GatherDims S16x322048 S626x2048x1 S16x626x2048 where
  offsetDims := [0]
  collapsedSliceDims := [1]
  operandBatchingDims := []
  startIndicesBatchingDims := []
  startIndexMap := [1]
  indexVectorDim := 2
  sliceSizes := ![16, 1]
  wf := gather_S16x322048_S626x2048x1_S16x626x2048_0_1_n_n_1_2_161_wf
def dot_S512x512_S512x2050_S512x2050_1_0_0_1_n_n : DotDims S512x512 S512x2050 S512x2050 where
  lhsContracting := [1]
  rhsContracting := [0]
  lhsNonContracting := [0]
  rhsNonContracting := [1]
  lhsBatch := []
  rhsBatch := []
  wf := dot_S512x512_S512x2050_S512x2050_1_0_0_1_n_n_wf

abbrev win0_0 : Pipeline.Window sig grid0 :=
  Pipeline.Window.ofSpec (Memref.whole main_v18) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S512x2050.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S512x2050.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16x320000 : Shape := ⟨2, ![16, 320000]⟩
abbrev S1025x2048 : Shape := ⟨2, ![1025, 2048]⟩
abbrev S_ : Shape := ⟨0, ![]⟩
abbrev S16x1 : Shape := ⟨2, ![16, 1]⟩
abbrev S16x1024 : Shape := ⟨2, ![16, 1024]⟩
abbrev S16x321024 : Shape := ⟨2, ![16, 321024]⟩
abbrev S16x322048 : Shape := ⟨2, ![16, 322048]⟩
abbrev S626 : Shape := ⟨1, ![626]⟩
abbrev S626x1 : Shape := ⟨2, ![626, 1]⟩
abbrev S2048 : Shape := ⟨1, ![2048]⟩
abbrev S1x2048 : Shape := ⟨2, ![1, 2048]⟩
abbrev S626x2048 : Shape := ⟨2, ![626, 2048]⟩
abbrev S626x2048x1 : Shape := ⟨3, ![626, 2048, 1]⟩
abbrev S16x626x2048 : Shape := ⟨3, ![16, 626, 2048]⟩
abbrev S16x626x1025 : Shape := ⟨3, ![16, 626, 1025]⟩
abbrev S16x1x626x1025 : Shape := ⟨4, ![16, 1, 626, 1025]⟩

abbrev nBuf : Space → Nat
  | .hbm => 35
  | .vmem => 0
  | .smem => 0
  | _ => 0

abbrev bufTy : (tb : Table) → Fin (tcTables nBuf tb) → BufTy
  | .hbm, ⟨0, _⟩ => ⟨S16x320000, .f32⟩
  | .hbm, ⟨1, _⟩ => ⟨S1025x2048, .f32⟩
  | .hbm, ⟨2, _⟩ => ⟨S1025x2048, .f32⟩
  | .hbm, ⟨3, _⟩ => ⟨S_, .i32⟩
  | .hbm, ⟨4, _⟩ => ⟨S16x1, .f32⟩
  | .hbm, ⟨5, _⟩ => ⟨S16x1024, .f32⟩
  | .hbm, ⟨6, _⟩ => ⟨S16x1024, .f32⟩
  | .hbm, ⟨7, _⟩ => ⟨S16x321024, .f32⟩
  | .hbm, ⟨8, _⟩ => ⟨S16x1, .f32⟩
  | .hbm, ⟨9, _⟩ => ⟨S16x1024, .f32⟩
  | .hbm, ⟨10, _⟩ => ⟨S16x1024, .f32⟩
  | .hbm, ⟨11, _⟩ => ⟨S16x322048, .f32⟩
  | .hbm, ⟨12, _⟩ => ⟨S626, .i32⟩
  | .hbm, ⟨13, _⟩ => ⟨S626x1, .i32⟩
  | .hbm, ⟨14, _⟩ => ⟨S_, .i32⟩
  | .hbm, ⟨15, _⟩ => ⟨S626x1, .i32⟩
  | .hbm, ⟨16, _⟩ => ⟨S626x1, .i32⟩
  | .hbm, ⟨17, _⟩ => ⟨S2048, .i32⟩
  | .hbm, ⟨18, _⟩ => ⟨S1x2048, .i32⟩
  | .hbm, ⟨19, _⟩ => ⟨S626x2048, .i32⟩
  | .hbm, ⟨20, _⟩ => ⟨S626x2048, .i32⟩
  | .hbm, ⟨21, _⟩ => ⟨S626x2048, .i32⟩
  | .hbm, ⟨22, _⟩ => ⟨S_, .i32⟩
  | .hbm, ⟨23, _⟩ => ⟨S626x2048, .i32⟩
  | .hbm, ⟨24, _⟩ => ⟨S626x2048, .i1⟩
  | .hbm, ⟨25, _⟩ => ⟨S_, .i32⟩
  | .hbm, ⟨26, _⟩ => ⟨S626x2048, .i32⟩
  | .hbm, ⟨27, _⟩ => ⟨S626x2048, .i32⟩
  | .hbm, ⟨28, _⟩ => ⟨S626x2048, .i32⟩
  | .hbm, ⟨29, _⟩ => ⟨S626x2048x1, .i32⟩
  | .hbm, ⟨30, _⟩ => ⟨S16x626x2048, .f32⟩
  | .hbm, ⟨31, _⟩ => ⟨S16x626x1025, .f32⟩
  | .hbm, ⟨32, _⟩ => ⟨S16x626x1025, .f32⟩
  | .hbm, ⟨33, _⟩ => ⟨S16x1x626x1025, .f32⟩
  | .hbm, ⟨34, _⟩ => ⟨S16x1x626x1025, .f32⟩
  | _, _ => ⟨S16x320000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c_1 : Ref sig .tc := ⟨.hbm, 22, rfl⟩
abbrev main_v10 : Ref sig .tc := ⟨.hbm, 23, rfl⟩
abbrev main_v11 : Ref sig .tc := ⟨.hbm, 24, rfl⟩
abbrev main_c_2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩

abbrev nD : Nat := 1
abbrev τ : Topo := Topo.v7x

variable {F : FTy → Type} [FloatOps F]

class Facts₀ : Prop where
  slices_S16x320000_S16x1_0_0 : S16x320000.Slices ![0, 0] S16x1
  slices_S16x320000_S16x1024_0_1 : S16x320000.Slices ![0, 1] S16x1024
  concatenates_S16x1024_S16x320000_S16x321024_d1 : Shape.Concatenates [S16x1024, S16x320000] S16x321024 1
  slices_S16x321024_S16x1_0_321023 : S16x321024.Slices ![0, 321023] S16x1
  slices_S16x321024_S16x1024_0_319999 : S16x321024.Slices ![0, 319999] S16x1024
  concatenates_S16x321024_S16x1024_S16x322048_d1 : Shape.Concatenates [S16x321024, S16x1024] S16x322048 1
  bcast_S626_S626x1_0 : S626.BroadcastsInDim S626x1 (![0] : Fin 1 → Fin S626x1.rank)
  bcast_S_S626x1 : S_.BroadcastsInDim S626x1 (![] : Fin 0 → Fin S626x1.rank)
  bcast_S2048_S1x2048_1 : S2048.BroadcastsInDim S1x2048 (![1] : Fin 1 → Fin S1x2048.rank)
  bcast_S626x1_S626x2048_0_1 : S626x1.BroadcastsInDim S626x2048 (![0, 1] : Fin 2 → Fin S626x2048.rank)
  bcast_S1x2048_S626x2048_0_1 : S1x2048.BroadcastsInDim S626x2048 (![0, 1] : Fin 2 → Fin S626x2048.rank)
  bcast_S_S626x2048 : S_.BroadcastsInDim S626x2048 (![] : Fin 0 → Fin S626x2048.rank)
  bcast_S626x2048_S626x2048x1_0_1 : S626x2048.BroadcastsInDim S626x2048x1 (![0, 1] : Fin 2 → Fin S626x2048x1.rank)
  bcast_S16x626x1025_S16x1x626x1025_0_2_3 : S16x626x1025.BroadcastsInDim S16x1x626x1025 (![0, 2, 3] : Fin 3 → Fin S16x1x626x1025.rank)
  gather_S16x322048_S626x2048x1_S16x626x2048_0_1_n_n_1_2_161_wf : GatherDims.WF S16x322048 S626x2048x1 S16x626x2048 [0] [1] [] [1] [] 2 ![16, 1]
  dot_S16x626x2048_S1025x2048_S16x626x1025_2_1_01_0_n_n_wf : DotDims.WF S16x626x2048 S1025x2048 S16x626x1025 [2] [1] [0, 1] [0] [] []

variable [Facts₀]

def gather_S16x322048_S626x2048x1_S16x626x2048_0_1_n_n_1_2_161 : GatherDims S16x322048 S626x2048x1 S16x626x2048 where
  offsetDims := [0]
  collapsedSliceDims := [1]
  operandBatchingDims := []
  startIndicesBatchingDims := []
  startIndexMap := [1]
  indexVectorDim := 2
  sliceSizes := ![16, 1]
  wf := gather_S16x322048_S626x2048x1_S16x626x2048_0_1_n_n_1_2_161_wf
def dot_S16x626x2048_S1025x2048_S16x626x1025_2_1_01_0_n_n : DotDims S16x626x2048 S1025x2048 S16x626x1025 where
  lhsContracting := [2]
  rhsContracting := [1]
  lhsNonContracting := [0, 1]
  rhsNonContracting := [0]
  lhsBatch := []
  rhsBatch := []
  wf := dot_S16x626x2048_S1025x2048_S16x626x1025_2_1_01_0_n_n_wf

class Facts : Prop extends Facts₀ where

variable [Facts]
-- ==== Proof.KBody.lean ====
/-
  What one visit of the kernel body leaves behind, in each of its three kinds of visit.

  The body keeps a [512, 2050] accumulator across the four visits of a row block.  Writing `step a w acc` for
  "the accumulator plus the product of the left block `a` and the right block `w`" (the body's second stored
  value) and `zero` for the block of zeros (its first):
    · first visit of a row block: the accumulator is set to zero, read back, and left at `step a w zero`;
    · a middle visit: the accumulator found at `acc` is left at `step a w acc`;
    · last visit: the same, and the accumulator just stored is read back and copied to the output block.
  Each store covers its whole buffer and each load reads a whole buffer, so what is left is the stored value
  itself, with the loads replaced by the contents they read.
-/
import proofs.«165752_j29789893165288_1_alg».proof.Proof.Gen.KernelIdeal.Frame
import Idealize.ShloMosaic.Lib.Pipeline.Value
import Idealize.ShloMosaic.Lib.Tactic

noncomputable section

namespace Cert.KernelIdeal.StftBody

open Idealize.ShloMosaic Idealize.ShloMosaic.TcCoe Idealize.ShloMosaic.Tactic Idealize.SL.Sem
open Cert.KernelIdeal Cert.KernelIdeal.Gen

variable {F : FTy → Type} [FloatOps F]

theorem hz : (![0, 0] : Fin 2 → Nat) = fun _ => 0 := funext fun a => by fin_cases a <;> rfl

/-- First visit of a row block: the accumulator is left at the product added onto the zero block. -/
theorem acc_first (c : Dev nD) (i : grid0.Coords) (a2 : Memref sig .tc .vmem S512x512 .f32) (h2 : a2.IsWhole)
    (a3 : Memref sig .tc .vmem S512x2050 .f32) (h3 : a3.IsWhole) (a4 : Memref sig .tc .vmem S512x2050 .f32) (h4 : a4.IsWhole)
    (a5 : Memref sig .tc .vmem S512x2050 .f32) (h5 : a5.IsWhole) (hc0 : cond0_0 i) (hc1 : ¬cond0_1 i)
    (x0 : Vec F S512x512 .f32) (x1 : Vec F S512x2050 .f32) :
    sout0_A_0 c i a2 h2 a3 h3 a4 h4 a5 h5 hc0 hc1 x0 x1 = k0_pay2 x0 x1 k0_pay1 := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S512x2050) hz]
  simp only [View.readAt_eq_ld, h2.read_unread, h3.read_unread, h5.read_unread, View.readCov_unit_zero (S := S512x2050) _ hz,
    View.ld_unit_zero (S := S512x2050) hz, View.ld_unit_zero (S := S512x512) hz]

/-- A middle visit: the accumulator found at `xs` is left at the product added onto `xs`. -/
theorem acc_middle (c : Dev nD) (i : grid0.Coords) (a2 : Memref sig .tc .vmem S512x512 .f32) (h2 : a2.IsWhole)
    (a3 : Memref sig .tc .vmem S512x2050 .f32) (h3 : a3.IsWhole) (a4 : Memref sig .tc .vmem S512x2050 .f32) (h4 : a4.IsWhole)
    (a5 : Memref sig .tc .vmem S512x2050 .f32) (h5 : a5.IsWhole) (hc0 : ¬cond0_0 i) (hc1 : ¬cond0_1 i)
    (x0 : Vec F S512x512 .f32) (x1 : Vec F S512x2050 .f32) (xs : Vec F S512x2050 .f32) :
    sout0_B_0 c i a2 h2 a3 h3 a4 h4 a5 h5 hc0 hc1 x0 x1 xs = k0_pay2 x0 x1 xs := by
  unfold sout0_B_0
  rw [View.read_writes_eq_canon _ _ _ (scover0_B_0 c i a2 h2 a3 h3 a4 h4 a5 h5 hc0 hc1 x0 x1 xs)]
  unfold kernelRun0_B
  dsimp only
  sl_unfold_words
  rw [View.canon_unit_zero hz]
  simp only [View.readAt_eq_ld, h2.read_unread, h3.read_unread, h5.read_unread, View.readCov_unit_zero (S := S512x2050) _ hz,
    View.ld_unit_zero (S := S512x2050) hz, View.ld_unit_zero (S := S512x512) hz]

/-- Last visit: the accumulator is left at the product added onto `xs` … -/
theorem acc_last (c : Dev nD) (i : grid0.Coords) (a2 : Memref sig .tc .vmem S512x512 .f32) (h2 : a2.IsWhole)
    (a3 : Memref sig .tc .vmem S512x2050 .f32) (h3 : a3.IsWhole) (a4 : Memref sig .tc .vmem S512x2050 .f32) (h4 : a4.IsWhole)
    (a5 : Memref sig .tc .vmem S512x2050 .f32) (h5 : a5.IsWhole) (hc0 : ¬cond0_0 i) (hc1 : cond0_1 i)
    (x0 : Vec F S512x512 .f32) (x1 : Vec F S512x2050 .f32) (xs : Vec F S512x2050 .f32) :
    sout0_C_0 c i a2 h2 a3 h3 a4 h4 a5 h5 hc0 hc1 x0 x1 xs = k0_pay2 x0 x1 xs := by
  unfold sout0_C_0
  rw [View.read_writes_eq_canon _ _ _ (scover0_C_0 c i a2 h2 a3 h3 a4 h4 a5 h5 hc0 hc1 x0 x1 xs)]
  unfold kernelRun0_C
  dsimp only
  sl_unfold_words
  rw [View.canon_unit_zero hz]
  simp only [View.readAt_eq_ld, h2.read_unread, h3.read_unread, h5.read_unread, View.readCov_unit_zero (S := S512x2050) _ hz,
    View.ld_unit_zero (S := S512x2050) hz, View.ld_unit_zero (S := S512x512) hz]

/-- … and the output block receives that same value. -/
theorem out_last (c : Dev nD) (i : grid0.Coords) (a2 : Memref sig .tc .vmem S512x512 .f32) (h2 : a2.IsWhole)
    (a3 : Memref sig .tc .vmem S512x2050 .f32) (h3 : a3.IsWhole) (a4 : Memref sig .tc .vmem S512x2050 .f32) (h4 : a4.IsWhole)
    (a5 : Memref sig .tc .vmem S512x2050 .f32) (h5 : a5.IsWhole) (hc0 : ¬cond0_0 i) (hc1 : cond0_1 i)
    (x0 : Vec F S512x512 .f32) (x1 : Vec F S512x2050 .f32) (xs : Vec F S512x2050 .f32) :
    out0_C_2 c i a2 h2 a3 h3 a4 h4 a5 h5 hc0 hc1 x0 x1 xs = k0_pay2 x0 x1 xs := by
  unfold out0_C_2
  rw [View.read_writes_eq_canon _ _ _ (cover0_C_2 c i a2 h2 a3 h3 a4 h4 a5 h5 hc0 hc1 x0 x1 xs)]
  unfold kernelRun0_C
  dsimp only
  sl_unfold_words
  rw [View.canon_unit_zero hz]
  simp only [View.readAt_eq_ld, h2.read_unread, h3.read_unread, h5.read_unread, View.readCov_unit_zero (S := S512x2050) _ hz,
    View.ld_unit_zero (S := S512x2050) hz, View.ld_unit_zero (S := S512x512) hz]

end Cert.KernelIdeal.StftBody

end
-- ==== Proof.KPay.lean ====
/-
  What one visit of the kernel body stores, entry by entry, over the extended reals.

  The body holds a [512, 512] block `a` of the left operand, a [512, 2050] block `w` of the right operand and
  the running [512, 2050] accumulator `acc`.  It stores `acc + a · w`: entry (p, q) is
  `acc[p, q] + ∑ j < 512, a[p, j] · w[j, q]` (the narrowing of the operands to bf16 is the identity on extended
  reals, and the matrix product into a zero accumulator is the plain sum of products).  At the first visit of a
  row block the accumulator is first set to zero.
-/
import proofs.«165752_j29789893165288_1_alg».proof.Proof.Gen.KernelIdeal.Skeleton
import Idealize.ShloMosaic.PureOps.Ideal
import Idealize.ShloMosaic.PureOps.Ideal.Laws
import Idealize.ShloMosaic.Lib.ValueIdx
import Idealize.ShloMosaic.Lib.Pipeline.Value

noncomputable section

namespace Cert.KernelIdeal.StftBody

open Idealize.ShloMosaic Idealize.ShloMosaic.ValueIdx
open Cert.KernelIdeal Cert.KernelIdeal.Gen

/-- The reset stores zeros. -/
theorem pay1_apply (p : Fin 512) (q : Fin 2050) :
    (k0_pay1 (F := Ideal) : Vec Ideal S512x2050 .f32) (ix2 p q) = 0 := by
  unfold k0_pay1
  rw [shapeCast_self]
  exact Ideal.ofBits_zero_f32

/-- On the left operand's row axis the operand index is the output's row. -/
private theorem lhs_axis0 (j : S512x2050.Idx) (k : dot_S512x512_S512x2050_S512x2050_1_0_0_1_n_n.contr.Idx) :
    (dot_S512x512_S512x2050_S512x2050_1_0_0_1_n_n.lhsIdx j k 0).val = (j 0).val := by
  unfold DotDims.lhsIdx
  rw [dif_neg (show ¬ (0 : Fin S512x512.rank) ∈ dot_S512x512_S512x2050_S512x2050_1_0_0_1_n_n.lhsBatch by decide),
    dif_pos (show (0 : Fin S512x512.rank) ∈ dot_S512x512_S512x2050_S512x2050_1_0_0_1_n_n.lhsNonContracting by decide)]
  rfl

/-- On the left operand's column axis, the one contracted, the operand index is the contraction coordinate. -/
private theorem lhs_axis1 (j : S512x2050.Idx) (k : dot_S512x512_S512x2050_S512x2050_1_0_0_1_n_n.contr.Idx) :
    (dot_S512x512_S512x2050_S512x2050_1_0_0_1_n_n.lhsIdx j k 1).val = (k ⟨0, by decide⟩).val :=
  dot_S512x512_S512x2050_S512x2050_1_0_0_1_n_n.lhsIdx_val_of_single rfl j k

/-- On the right operand's row axis, the one contracted, the operand index is the contraction coordinate. -/
private theorem rhs_axis0 (j : S512x2050.Idx) (k : dot_S512x512_S512x2050_S512x2050_1_0_0_1_n_n.contr.Idx) :
    (dot_S512x512_S512x2050_S512x2050_1_0_0_1_n_n.rhsIdx j k 0).val = (k ⟨0, by decide⟩).val :=
  dot_S512x512_S512x2050_S512x2050_1_0_0_1_n_n.rhsIdx_val_of_single rfl j k

/-- On the right operand's column axis the operand index is the output's column. -/
private theorem rhs_axis1 (j : S512x2050.Idx) (k : dot_S512x512_S512x2050_S512x2050_1_0_0_1_n_n.contr.Idx) :
    (dot_S512x512_S512x2050_S512x2050_1_0_0_1_n_n.rhsIdx j k 1).val = (j 1).val := by
  unfold DotDims.rhsIdx
  rw [dif_neg (show ¬ (1 : Fin S512x2050.rank) ∈ dot_S512x512_S512x2050_S512x2050_1_0_0_1_n_n.rhsBatch by decide),
    dif_pos (show (1 : Fin S512x2050.rank) ∈ dot_S512x512_S512x2050_S512x2050_1_0_0_1_n_n.rhsNonContracting by decide)]
  rfl

/-- The block product read at an entry: the sum over the contracted coordinate of the products of the entries. -/
private theorem matmul_entry (A : FVec Ideal S512x512 .bf16) (W : FVec Ideal S512x2050 .bf16) (p : Fin 512) (q : Fin 2050) :
    (matmul dot_S512x512_S512x2050_S512x2050_1_0_0_1_n_n none A W (constant (F := Ideal) S512x2050 .f32 0x00000000#32)
        : FVec Ideal S512x2050 .f32) (ix2 p q)
      = ∑ j : Fin 512, A (ix2 p j) * W (ix2 j q) := by
  refine (Ideal.matmul_constant_zero_apply dot_S512x512_S512x2050_S512x2050_1_0_0_1_n_n none A W (ix2 p q)).trans ?_
  rw [← Equiv.sum_comp (contrEquiv1 dot_S512x512_S512x2050_S512x2050_1_0_0_1_n_n 512 rfl rfl).symm]
  refine Finset.sum_congr rfl fun c _ => ?_
  have hk := contrEquiv1_symm_val dot_S512x512_S512x2050_S512x2050_1_0_0_1_n_n 512 rfl rfl c
  have hl : dot_S512x512_S512x2050_S512x2050_1_0_0_1_n_n.lhsIdx (ix2 p q)
      ((contrEquiv1 dot_S512x512_S512x2050_S512x2050_1_0_0_1_n_n 512 rfl rfl).symm c) = ix2 p c := by
    funext ax; apply Fin.ext
    match ax with
    | ⟨0, _⟩ => exact lhs_axis0 _ _
    | ⟨1, _⟩ => exact (lhs_axis1 _ _).trans hk
  have hr : dot_S512x512_S512x2050_S512x2050_1_0_0_1_n_n.rhsIdx (ix2 p q)
      ((contrEquiv1 dot_S512x512_S512x2050_S512x2050_1_0_0_1_n_n 512 rfl rfl).symm c) = ix2 c q := by
    funext ax; apply Fin.ext
    match ax with
    | ⟨0, _⟩ => exact (rhs_axis0 _ _).trans hk
    | ⟨1, _⟩ => exact rhs_axis1 _ _
  rw [hl, hr]

/-- The update stores the accumulator plus the block product. -/
theorem pay2_apply (a : Vec Ideal S512x512 .f32) (w : Vec Ideal S512x2050 .f32) (acc : Vec Ideal S512x2050 .f32)
    (p : Fin 512) (q : Fin 2050) :
    (k0_pay2 a w acc : Vec Ideal S512x2050 .f32) (ix2 p q) = acc (ix2 p q) + ∑ j : Fin 512, a (ix2 p j) * w (ix2 j q) := by
  unfold k0_pay2
  rw [shapeCast_self, shapeCast_self, shapeCast_self]
  show acc (ix2 p q) + _ = _
  exact congrArg (acc (ix2 p q) + ·) (matmul_entry _ _ p q)

end Cert.KernelIdeal.StftBody

end
-- ==== Proof.KAcc.lean ====
/-
  The accumulation over the grid, and the array the kernel region leaves.

  The grid has 20 × 4 points, visited row block by row block: point `t` works on rows `512 (t / 4) … + 511` of
  the left operand `L : [10240, 2048]` and on columns `512 (t % 4) … + 511` of it, against rows `512 (t % 4) … + 511`
  of the right operand `R : [2048, 2050]`.  Writing

      prod i₀ k p q = ∑ j < 512, L[512 i₀ + p, 512 k + j] · R[512 k + j, q]

  the accumulator after point `t` holds, at (p, q), the chain `upTo (t / 4) (t % 4) p q` where
  `upTo i₀ 0 = 0 + prod i₀ 0` and `upTo i₀ (k + 1) = upTo i₀ k + prod i₀ (k + 1)`: by induction on the point, the
  three kinds of visit being the chain's start and its step.  Every fourth point copies the accumulator to its
  output block, the output blocks tile the output array, so entry (r, q) of the array the region leaves is
  `upTo (r / 512) 3 (r % 512) q`.
-/
import proofs.«165752_j29789893165288_1_alg».proof.Proof.KBody
import proofs.«165752_j29789893165288_1_alg».proof.Proof.KPay
import Idealize.ShloMosaic.Lib.Pipeline.Value
import Idealize.ShloMosaic.Lib.ValueIdx

noncomputable section

namespace Cert.KernelIdeal.StftAcc

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.StftBody

variable (m : (ℓ : Loc nD τ sig) → Buf (Elt Ideal) ℓ)

/-- The two operands as the region finds them, and their blocks at a point, at their literal types. -/
abbrev lhs (c : Dev nD) : Vec Ideal S10240x2048 .f32 := V m c main_v18
abbrev rhs (c : Dev nD) : Vec Ideal S2048x2050 .f32 := V m c main_v21
abbrev lblk (c : Dev nD) (t : Fin cfg0.N) : Vec Ideal S512x512 .f32 := iblk m c 0 t
abbrev rblk (c : Dev nD) (t : Fin cfg0.N) : Vec Ideal S512x2050 .f32 := iblk m c 1 t

/-- Which block each window holds at point `t`: row block `t / 4`, column block `t % 4`. -/
theorem idx_facts : ∀ t : Fin cfg0.N,
    win0_0.index t (0 : Fin 2) = t.val / 4 ∧ win0_0.index t (1 : Fin 2) = t.val % 4
    ∧ win0_1.index t (0 : Fin 2) = t.val % 4 ∧ win0_1.index t (1 : Fin 2) = 0
    ∧ win0_2.index t (0 : Fin 2) = t.val / 4 ∧ win0_2.index t (1 : Fin 2) = 0 :=
  (by decide +kernel : ∀ t : Fin grid0.N, _)

/-- Row `512 i₀ + p` of 10240 and column `512 k + j` of 2048 (reduced modulo the extent, so that no bound is owed). -/
def rowOf (i0 : ℕ) (p : Fin 512) : Fin 10240 := ⟨(512 * i0 + p.val) % 10240, Nat.mod_lt _ (by decide)⟩
def colOf (k : ℕ) (j : Fin 512) : Fin 2048 := ⟨(512 * k + j.val) % 2048, Nat.mod_lt _ (by decide)⟩

/-- The left block at point `t` is rows `512 (t / 4) + ·`, columns `512 (t % 4) + ·` of the left operand. -/
theorem lblk_apply (c : Dev nD) (t : Fin cfg0.N) (p j : Fin 512) :
    lblk m c t (ix2 p j) = lhs m c (ix2 (rowOf (t.val / 4) p) (colOf (t.val % 4) j)) := by
  have hN : t.val < 80 := lt_of_lt_of_eq t.isLt (show cfg0.N = 80 from N_0)
  obtain ⟨e0, e1, -⟩ := idx_facts t
  unfold lblk iblk
  rw [View.read_apply]
  show V m c main_v18 _ = V m c main_v18 _
  refine congrArg (V m c main_v18) ?_
  funext a; apply Fin.ext
  match a with
  | ⟨0, _⟩ =>
    show win0_0.index t (0 : Fin 2) * 512 + 1 * p.val = (512 * (t.val / 4) + p.val) % 10240
    rw [e0]; have := p.isLt; omega
  | ⟨1, _⟩ =>
    show win0_0.index t (1 : Fin 2) * 512 + 1 * j.val = (512 * (t.val % 4) + j.val) % 2048
    rw [e1]; have := j.isLt; omega

/-- The right block at point `t` is rows `512 (t % 4) + ·` of the right operand, all columns. -/
theorem rblk_apply (c : Dev nD) (t : Fin cfg0.N) (j : Fin 512) (q : Fin 2050) :
    rblk m c t (ix2 j q) = rhs m c (ix2 (colOf (t.val % 4) j) q) := by
  obtain ⟨-, -, e2, e3, -⟩ := idx_facts t
  unfold rblk iblk
  rw [View.read_apply]
  show V m c main_v21 _ = V m c main_v21 _
  refine congrArg (V m c main_v21) ?_
  funext a; apply Fin.ext
  match a with
  | ⟨0, _⟩ =>
    show win0_1.index t (0 : Fin 2) * 512 + 1 * j.val = (512 * (t.val % 4) + j.val) % 2048
    rw [e2]; have := j.isLt; omega
  | ⟨1, _⟩ =>
    show win0_1.index t (1 : Fin 2) * 2050 + 1 * q.val = q.val
    rw [e3]; omega

/-- One block product: row `512 i₀ + p` of the left operand against column `q` of the right, over run `k` of 512. -/
def prod (c : Dev nD) (i0 k : ℕ) (p : Fin 512) (q : Fin 2050) : EReal :=
  ∑ j : Fin 512, lhs m c (ix2 (rowOf i0 p) (colOf k j)) * rhs m c (ix2 (colOf k j) q)

/-- The chain of block products of row block `i₀`, up to and including run `k`, started from zero. -/
def upTo (c : Dev nD) (i0 : ℕ) : ℕ → Fin 512 → Fin 2050 → EReal
  | 0, p, q => 0 + prod m c i0 0 p q
  | k + 1, p, q => upTo c i0 k p q + prod m c i0 (k + 1) p q

/-- What the body stores at point `t` over an accumulator `prev`: `prev` plus the point's block product. -/
theorem step_apply (c : Dev nD) (t : Fin cfg0.N) (prev : Vec Ideal S512x2050 .f32) (p : Fin 512) (q : Fin 2050) :
    (k0_pay2 (lblk m c t) (rblk m c t) prev : Vec Ideal S512x2050 .f32) (ix2 p q)
      = prev (ix2 p q) + prod m c (t.val / 4) (t.val % 4) p q := by
  rw [pay2_apply]
  unfold prod
  refine congrArg (prev (ix2 p q) + ·) (Finset.sum_congr rfl fun j _ => ?_)
  rw [lblk_apply, rblk_apply]

/-- The accumulator after the first visit of a row block. -/
theorem scratch_first (c : Dev nD) (t : Fin cfg0.N) (h0 : t.val % 4 = 0) (p : Fin 512) (q : Fin 2050) :
    ((outsAt0 m c t.val t.isLt).2 : Vec Ideal S512x2050 .f32) (ix2 p q) = upTo m c (t.val / 4) (t.val % 4) p q := by
  have h1 : ¬t.val % 4 = 3 := by omega
  rw [outsAt0_A m c t h0 h1]
  dsimp only
  refine (congrFun (acc_first (F := Ideal) c (grid0.coords t) (ms0_0 t) (hs0_0 t) (ms0_1 t) (hs0_1 t) (ms0_2 t) (hs0_2 t) scM0_0 (Memref.isWhole_whole _)
    ((hcond0_0 t).mpr h0) (fun h => h1 ((hcond0_1 t).mp h)) (iblk m c 0 t) (iblk m c 1 t)) (ix2 p q)).trans ?_
  refine (step_apply m c t (k0_pay1 (F := Ideal)) p q).trans ?_
  rw [pay1_apply, h0]
  rfl

/-- The accumulator after a later visit, from what the visit before left. -/
theorem scratch_next (c : Dev nD) (t : Fin cfg0.N) (h0 : ¬t.val % 4 = 0)
    (ih : ∀ (p : Fin 512) (q : Fin 2050),
      ((outsAt0 m c (t.val - 1) (Nat.lt_of_le_of_lt (Nat.sub_le _ _) t.isLt)).2 : Vec Ideal S512x2050 .f32) (ix2 p q)
        = upTo m c ((t.val - 1) / 4) ((t.val - 1) % 4) p q)
    (p : Fin 512) (q : Fin 2050) :
    ((outsAt0 m c t.val t.isLt).2 : Vec Ideal S512x2050 .f32) (ix2 p q) = upTo m c (t.val / 4) (t.val % 4) p q := by
  obtain ⟨k, hk⟩ : ∃ k, t.val % 4 = k + 1 := ⟨t.val % 4 - 1, by omega⟩
  have hd : (t.val - 1) / 4 = t.val / 4 := by omega
  have hm : (t.val - 1) % 4 = k := by omega
  by_cases h1 : t.val % 4 = 3
  · rw [outsAt0_C m c t h0 h1]
    dsimp only
    refine (congrFun (acc_last (F := Ideal) c (grid0.coords t) (ms0_0 t) (hs0_0 t) (ms0_1 t) (hs0_1 t) (ms0_2 t) (hs0_2 t) scM0_0 (Memref.isWhole_whole _)
      (fun h => h0 ((hcond0_0 t).mp h)) ((hcond0_1 t).mpr h1) (iblk m c 0 t) (iblk m c 1 t)
      (outsAt0 m c (t.val - 1) (Nat.lt_of_le_of_lt (Nat.sub_le _ _) t.isLt)).2) (ix2 p q)).trans ?_
    refine (step_apply m c t _ p q).trans ?_
    rw [ih, hd, hm, hk]
    rfl
  · rw [outsAt0_B m c t h0 h1]
    dsimp only
    refine (congrFun (acc_middle (F := Ideal) c (grid0.coords t) (ms0_0 t) (hs0_0 t) (ms0_1 t) (hs0_1 t) (ms0_2 t) (hs0_2 t) scM0_0 (Memref.isWhole_whole _)
      (fun h => h0 ((hcond0_0 t).mp h)) (fun h => h1 ((hcond0_1 t).mp h)) (iblk m c 0 t) (iblk m c 1 t)
      (outsAt0 m c (t.val - 1) (Nat.lt_of_le_of_lt (Nat.sub_le _ _) t.isLt)).2) (ix2 p q)).trans ?_
    refine (step_apply m c t _ p q).trans ?_
    rw [ih, hd, hm, hk]
    rfl

/-- THE INVARIANT: after point `n` the accumulator holds row block `n / 4`'s chain up to run `n % 4`. -/
theorem scratch_eq (c : Dev nD) : ∀ (n : ℕ) (hn : n < cfg0.N) (p : Fin 512) (q : Fin 2050),
    ((outsAt0 m c n hn).2 : Vec Ideal S512x2050 .f32) (ix2 p q) = upTo m c (n / 4) (n % 4) p q
  | 0, hn, p, q => scratch_first m c ⟨0, hn⟩ rfl p q
  | n + 1, hn, p, q => by
    by_cases h0 : (n + 1) % 4 = 0
    · exact scratch_first m c ⟨n + 1, hn⟩ h0 p q
    · exact scratch_next m c ⟨n + 1, hn⟩ h0 (fun p q => scratch_eq c n (Nat.lt_of_succ_lt hn) p q) p q

/-- At a row block's last visit the output block receives the whole chain. -/
theorem out_eq (c : Dev nD) (t : Fin cfg0.N) (h1 : t.val % 4 = 3) (p : Fin 512) (q : Fin 2050) :
    ((outsAt0 m c t.val t.isLt).1 : Vec Ideal S512x2050 .f32) (ix2 p q) = upTo m c (t.val / 4) 3 p q := by
  have h0 : ¬t.val % 4 = 0 := by omega
  have hd : (t.val - 1) / 4 = t.val / 4 := by omega
  have hm : (t.val - 1) % 4 = 2 := by omega
  rw [outsAt0_C m c t h0 h1]
  dsimp only
  refine (congrFun (out_last (F := Ideal) c (grid0.coords t) (ms0_0 t) (hs0_0 t) (ms0_1 t) (hs0_1 t) (ms0_2 t) (hs0_2 t) scM0_0 (Memref.isWhole_whole _)
    (fun h => h0 ((hcond0_0 t).mp h)) ((hcond0_1 t).mpr h1) (iblk m c 0 t) (iblk m c 1 t)
    (outsAt0 m c (t.val - 1) (Nat.lt_of_le_of_lt (Nat.sub_le _ _) t.isLt)).2) (ix2 p q)).trans ?_
  refine (step_apply m c t _ p q).trans ?_
  rw [scratch_eq m c (t.val - 1) _ p q, hd, hm, h1]
  rfl

/-- The array the region leaves: entry (r, q) is row block `r / 512`'s whole chain at row `r % 512`. -/
def product (c : Dev nD) : Vec Ideal S10240x2050 .f32 := fun i =>
  upTo m c ((i 0).val / 512) 3 ⟨(i 0).val % 512, Nat.mod_lt _ (by decide)⟩ ⟨(i 1).val, idx2_lt1 i⟩

theorem product_apply (c : Dev nD) (i0 : ℕ) (p : Fin 512) (q : Fin 2050) (i : S10240x2050.Idx)
    (h0 : (i 0).val = 512 * i0 + p.val) (h1 : (i 1).val = q.val) :
    product m c i = upTo m c i0 3 p q := by
  unfold product
  have hp := p.isLt
  have e0 : (i 0).val / 512 = i0 := by omega
  have e1 : (⟨(i 0).val % 512, Nat.mod_lt _ (by decide)⟩ : Fin 512) = p := Fin.ext (by show (i 0).val % 512 = p.val; omega)
  have e2 : (⟨(i 1).val, idx2_lt1 i⟩ : Fin 2050) = q := Fin.ext h1
  rw [e0, e1, e2]

/-- What a flushing point writes back is its block of `product`. -/
theorem flushed_eq (c : Dev nD) (t : Fin cfg0.N) (hf : (cfg0.win 2).flush t = true) :
    (dats m 0 c).flushed 2 t = ((cfg0.win 2).blk t).view.read (Elt Ideal) (product m c) := by
  have h3 : t.val % 4 = 3 := (flush0_2 t).mp hf
  obtain ⟨-, -, -, -, e4, e5⟩ := idx_facts t
  show (cfg0.win 2).cut (grid0.coords t) ((dats m 0 c).after 2 t) = _
  rw [after0_2]
  funext y
  rw [View.read_apply]
  obtain ⟨p, q, rfl⟩ : ∃ (p : Fin 512) (q : Fin 2050), y = ix2 p q := ⟨y 0, y 1, eq_ix2 y⟩
  refine (out_eq m c t h3 p q).trans (product_apply m c (t.val / 4) p q _ ?_ ?_).symm
  · show win0_2.index t (0 : Fin 2) * 512 + 1 * p.val = 512 * (t.val / 4) + p.val
    rw [e4]; omega
  · show win0_2.index t (1 : Fin 2) * 2050 + 1 * q.val = q.val
    rw [e5]; omega

/-- An entry is in point `t`'s output block iff each coordinate is in the block's range. -/
theorem mem_blk (t : Fin cfg0.N) (i : S10240x2050.Idx) :
    i ∈ ((cfg0.win 2).blk t).view.set ↔ ∀ a : Fin 2, win0_2.index t a * S512x2050.size a ≤ (i a).val
      ∧ (i a).val < win0_2.index t a * S512x2050.size a + S512x2050.size a := by
  show i ∈ ((View.whole main_v22).slice (win0_2.rect t)).set ↔ _
  rw [View.set_slice_whole, Rect.mem_set_unit]
  exact Iff.rfl

/-- THE REGION'S RESULT: the output array ends holding `product`. -/
theorem final (c : Dev nD) : (dats m 0 c).arrAt 2 cfg0.N = product m c :=
  (dats m 0 c).arrAt_eq_of_cover 2 (product m c) (flushed_eq m c) fun i => by
    have hi0 : (i 0).val < 10240 := idx2_lt0 i
    have hi1 : (i 1).val < 2050 := idx2_lt1 i
    have hN : cfg0.N = 80 := N_0
    refine ⟨⟨4 * ((i 0).val / 512) + 3, by rw [hN]; omega⟩, (flush0_2 _).mpr (by show (4 * ((i 0).val / 512) + 3) % 4 = 3; omega), ?_⟩
    rw [mem_blk]
    obtain ⟨-, -, -, -, e4, e5⟩ := idx_facts ⟨4 * ((i 0).val / 512) + 3, by rw [hN]; omega⟩
    intro a
    match a with
    | ⟨0, _⟩ =>
      show win0_2.index _ (0 : Fin 2) * 512 ≤ (i 0).val ∧ (i 0).val < win0_2.index _ (0 : Fin 2) * 512 + 512
      rw [e4]; show (4 * ((i 0).val / 512) + 3) / 4 * 512 ≤ (i 0).val ∧ (i 0).val < (4 * ((i 0).val / 512) + 3) / 4 * 512 + 512
      omega
    | ⟨1, _⟩ =>
      show win0_2.index _ (1 : Fin 2) * 2050 ≤ (i 1).val ∧ (i 1).val < win0_2.index _ (1 : Fin 2) * 2050 + 2050
      rw [e5]; omega

end Cert.KernelIdeal.StftAcc

end
-- ==== Proof.Frames.lean ====
/-
  The framed signal, as one function of the signal: both programs build it by the same operations before they
  part ways, so the certificate names it once and never looks inside.

  `padded x` mirrors 1024 samples of `x : [16, 320000]` at each end (reflection about the first and about the
  last sample, the end samples themselves not repeated): `[16, 322048]`.  `frameIdx` is the table of sample
  positions `512 t + n` for frame `t < 626` and offset `n < 2048` (with the wrap of a negative position, which
  never occurs).  `frames x` gathers `padded x` at those positions: `frames x [b, t, n] = padded x [b, 512 t + n]`.
-/
import proofs.«165752_j29789893165288_1_alg».proof.Proof.Gen.KernelIdeal

noncomputable section

namespace Cert.Stft

open Idealize.ShloMosaic Cert.KernelIdeal Cert.KernelIdeal.Facts₀

variable {F : FTy → Type} [FloatOps F]

/-- The signal with its first 1024 samples after the first mirrored in front: `[16, 321024]`. -/
def paddedFront (x : Vec F S16x320000 .f32) : Vec F S16x321024 .f32 :=
  concatenate S16x321024 1
    [⟨S16x1024, Host.reverse [1] (extractStridedSlice S16x1024 ![0, 1] x slices_S16x320000_S16x1024_0_1)⟩,
      ⟨S16x320000, x⟩]
    concatenates_S16x1024_S16x320000_S16x321024_d1

/-- … and its last 1024 samples before the last mirrored behind: `[16, 322048]`. -/
def padded (x : Vec F S16x320000 .f32) : Vec F S16x322048 .f32 :=
  concatenate S16x322048 1
    [⟨S16x321024, paddedFront x⟩,
      ⟨S16x1024, Host.reverse [1] (extractStridedSlice S16x1024 ![0, 319999] (paddedFront x) slices_S16x321024_S16x1024_0_319999)⟩]
    concatenates_S16x321024_S16x1024_S16x322048_d1

/-- Position `512 t + n` of frame `t`'s sample `n`. -/
def framePos : IVec S626x2048 32 :=
  addi
    (broadcastInDim S626x2048 ![0, 1] bcast_S626x1_S626x2048_0_1
      (muli (broadcastInDim S626x1 ![0] bcast_S626_S626x1_0 (iotaInDim S626 32 0))
        (broadcastInDim S626x1 ![] bcast_S_S626x1 (constantI S_ 32 512#32))))
    (broadcastInDim S626x2048 ![0, 1] bcast_S1x2048_S626x2048_0_1
      (broadcastInDim S1x2048 ![1] bcast_S2048_S1x2048_1 (iotaInDim S2048 32 0)))

/-- The gather's index table: the positions, a negative one wrapped around the padded length. -/
def frameIdx : IVec S626x2048x1 32 :=
  broadcastInDim S626x2048x1 ![0, 1] bcast_S626x2048_S626x2048x1_0_1
    (select (cmpi .slt framePos (broadcastInDim S626x2048 ![] bcast_S_S626x2048 (constantI S_ 32 0#32)))
      (addi framePos (broadcastInDim S626x2048 ![] bcast_S_S626x2048 (constantI S_ 32 322048#32)))
      framePos)

/-- The framed signal `[16, 626, 2048]`. -/
def frames (x : Vec F S16x320000 .f32) : Vec F S16x626x2048 .f32 :=
  Host.gather gather_S16x322048_S626x2048x1_S16x626x2048_0_1_n_n_1_2_161 (padded x) frameIdx

end Cert.Stft

end
-- ==== Proof.KHost.lean ====
/-
  The host operations around the kernel region, read entry by entry.

  Before the region: the left operand is the framed signal with its two leading axes merged, `[16·626, 2048]`,
  followed by 224 rows of zeros: row `626 b + t` is frame (b, t).  The right operand is the two Fourier matrices
  transposed and set side by side, `[2048, 2·1025]`: column `r` is row `r` of the first, column `1025 + r` row
  `r` of the second.
  After the region: the 224 padding rows are cut off, the columns are split back into the two halves, the row
  axis is split back into (b, t) and a unit axis is inserted: entry (b, 0, t, r) of the first result is entry
  `(626 b + t, r)` of the product, and of the second result entry `(626 b + t, 1025 + r)`.

  The operations before the region come in five stretches.  Running a concatenation of lists of operations is
  running the lists one after the other (`after_append`), so each array is read off the one stretch that writes
  it, over an arbitrary valuation for what the earlier stretches left, and the stretches are then chained.
-/
import proofs.«165752_j29789893165288_1_alg».proof.Proof.Gen.KernelIdeal.Frame
import proofs.«165752_j29789893165288_1_alg».proof.Proof.Frames
import Idealize.ShloMosaic.PureOps.Ideal
import Idealize.ShloMosaic.Lib.ValueIdx
import Idealize.ShloMosaic.Lib.Pipeline.Value
import Idealize.ShloMosaic.Lib.KernelVsHost
import Idealize.ShloMosaic.Lib.StableHlo.Run

noncomputable section

namespace Cert.KernelIdeal.StftHost

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-! ## The stretches of host operations before the region -/

/-- Running two lists of operations in order is running their concatenation. -/
theorem after_append (l₁ l₂ : List (HloOp τ sig (Elt Ideal))) (W : Valuation τ sig (Elt Ideal)) :
    StableHlo.after (l₁ ++ l₂) W = StableHlo.after l₂ (StableHlo.after l₁ W) := by
  induction l₁ generalizing W with
  | nil => rfl
  | cons op l ih => exact ih (op.result W)

/-- The contents at the region's entry, one stretch of host operations after the other. -/
theorem V0_stretches (c : Dev nD) :
    V0 m c = StableHlo.after hostOps0_4 (StableHlo.after hostOps0_3 (StableHlo.after hostOps0_2
      (StableHlo.after hostOps0_1 (StableHlo.after hostOps0 (fun b => m (c, b)))))) := by
  show StableHlo.after (List.flatten [hostOps0, hostOps0_1, hostOps0_2, hostOps0_3, hostOps0_4]) _ = _
  rw [List.flatten_cons, List.flatten_cons, List.flatten_cons, List.flatten_cons, List.flatten_cons, List.flatten_nil,
    List.append_nil, after_append, after_append, after_append, after_append]

/-- The last stretch sets the two transposed matrices side by side. -/
theorem s4_v21 (W : Valuation τ sig (Elt Ideal)) :
    (StableHlo.after hostOps0_4 W (Proc.devRef .tc main_v21) : S2048x2050.Idx → EReal)
      = concatenate S2048x2050 1
          [⟨S2048x1025, transpose S2048x1025 [1, 0] (W (Proc.devRef .tc main_arg1) : S1025x2048.Idx → EReal) transposes_S1025x2048_S2048x1025_1_0⟩,
           ⟨S2048x1025, transpose S2048x1025 [1, 0] (W (Proc.devRef .tc main_arg2) : S1025x2048.Idx → EReal) transposes_S1025x2048_S2048x1025_1_0⟩]
          concatenates_S2048x1025_S2048x1025_S2048x2050_d1 := by
  dsimp only [hostOps0_4]
  after_results

/-- … and leaves the padded left operand as it found it. -/
theorem s4_v18 (W : Valuation τ sig (Elt Ideal)) :
    StableHlo.after hostOps0_4 W (Proc.devRef .tc main_v18) = W (Proc.devRef .tc main_v18) := by
  dsimp only [hostOps0_4]
  after_results

/-- The fourth stretch pads the merged framed signal with rows of the converted constant. -/
theorem s3_v18 (W : Valuation τ sig (Elt Ideal)) :
    (StableHlo.after hostOps0_3 W (Proc.devRef .tc main_v18) : S10240x2048.Idx → EReal)
      = pad S10240x2048 ![0, 0] ![224, 0] ![0, 0] (W (Proc.devRef .tc main_v17) : S10016x2048.Idx → EReal)
          (sitofp (F := Ideal) .f32 (W (Proc.devRef .tc main_c_3) : S_.Idx → BitVec 32)) pads_S10016x2048_S10240x2048_02240_000 h_S_ := by
  dsimp only [hostOps0_3]
  after_results
  rfl

set_option maxHeartbeats 1000000 in
/-- The third stretch builds the table of sample positions, gathers the padded signal at it and merges the two
    leading axes of the result. -/
theorem s2_v17 (W : Valuation τ sig (Elt Ideal)) :
    (StableHlo.after hostOps0_2 W (Proc.devRef .tc main_v17) : S10016x2048.Idx → EReal)
      = shapeCast S10016x2048
          (Host.gather gather_S16x322048_S626x2048x1_S16x626x2048_0_1_n_n_1_2_161
            (W (Proc.devRef .tc main_v0) : S16x322048.Idx → EReal) Cert.Stft.frameIdx : S16x626x2048.Idx → EReal)
          shapeCasts_S16x626x2048_S10016x2048 := by
  dsimp only [hostOps0_2]
  after_results
  rfl

/-- The second stretch mirrors the signal at both ends. -/
theorem s1_v0 (W : Valuation τ sig (Elt Ideal)) :
    (StableHlo.after hostOps0_1 W (Proc.devRef .tc main_v0) : S16x322048.Idx → EReal)
      = Cert.Stft.padded (F := Ideal) (W (Proc.devRef .tc main_arg0) : S16x320000.Idx → EReal) := by
  dsimp only [hostOps0_1]
  after_results
  rfl

/-- The first stretch does not touch the signal. -/
theorem s0_arg0 (W : Valuation τ sig (Elt Ideal)) :
    StableHlo.after hostOps0 W (Proc.devRef .tc main_arg0) = W (Proc.devRef .tc main_arg0) := by
  dsimp only [hostOps0]
  after_results

/-- The left operand is the framed signal with its leading axes merged, padded below. -/
theorem v18_eq (c : Dev nD) :
    (V m c main_v18 : S10240x2048.Idx → EReal)
      = pad S10240x2048 ![0, 0] ![224, 0] ![0, 0]
          (shapeCast S10016x2048 (Cert.Stft.frames (m ((c.tc : Thread nD τ).loc main_arg0)) : S16x626x2048.Idx → EReal)
            shapeCasts_S16x626x2048_S10016x2048)
          (sitofp (F := Ideal) .f32
            (StableHlo.after hostOps0_2 (StableHlo.after hostOps0_1 (StableHlo.after hostOps0 (fun b => m (c, b))))
              (Proc.devRef .tc main_c_3) : S_.Idx → BitVec 32))
          pads_S10016x2048_S10240x2048_02240_000 h_S_ := by
  show V0 m c (Proc.devRef .tc main_v18) = _
  rw [V0_stretches, s4_v18, s3_v18, s2_v17, s1_v0, s0_arg0]
  rfl

/-- The right operand is the two matrices transposed and set side by side. -/
theorem v21_eq (c : Dev nD) :
    (V m c main_v21 : S2048x2050.Idx → EReal)
      = concatenate S2048x2050 1
          [⟨S2048x1025, transpose S2048x1025 [1, 0] (m ((c.tc : Thread nD τ).loc main_arg1) : S1025x2048.Idx → EReal) transposes_S1025x2048_S2048x1025_1_0⟩,
           ⟨S2048x1025, transpose S2048x1025 [1, 0] (m ((c.tc : Thread nD τ).loc main_arg2) : S1025x2048.Idx → EReal) transposes_S1025x2048_S2048x1025_1_0⟩]
          concatenates_S2048x1025_S2048x1025_S2048x2050_d1 := by
  rw [← V_main_arg1 m c, ← V_main_arg2 m c]
  show V0 m c (Proc.devRef .tc main_v21) = _
  rw [V0_stretches, s4_v21]
  rfl

/-! ## The operands read at an entry -/

/-- Row `626 b + t` of the padded, merged array is row (b, t) of the array before the merge: the row lies above the
    padding, and both indices have row-major position `(626 b + t) · 2048 + n`. -/
theorem pad_merge_apply (X : S16x626x2048.Idx → EReal) (pv : S_.Idx → EReal)
    (hS : S16x626x2048.ShapeCasts S10016x2048)
    (hP : S10016x2048.Pads (![0, 0] : Fin 2 → Nat) ![224, 0] ![0, 0] S10240x2048) (hu : 0 < S_.numel)
    (b : Fin 16) (t : Fin 626) (n : Fin 2048) (h : 626 * b.val + t.val < 10240) :
    pad S10240x2048 ![0, 0] ![224, 0] ![0, 0] (shapeCast S10016x2048 X hS) pv hP hu (ix2 ⟨626 * b.val + t.val, h⟩ n)
      = X (ix3 b t n) := by
  have hbt : 626 * b.val + t.val < 10016 := by have := b.isLt; have := t.isLt; omega
  refine (pad_apply_of_inside (s := S10016x2048) (t := S10240x2048) ![0, 0] ![224, 0] ![0, 0] (shapeCast S10016x2048 X hS) pv hP hu
    (ix2 ⟨626 * b.val + t.val, h⟩ n) (ix2 ⟨626 * b.val + t.val, hbt⟩ n) ?_).trans ?_
  · intro a
    match a with
    | ⟨0, _⟩ => show 626 * b.val + t.val = 0 + (626 * b.val + t.val) * (0 + 1); omega
    | ⟨1, _⟩ => show n.val = 0 + n.val * (0 + 1); omega
  · refine shapeCast_apply (s := S16x626x2048) (t := S10016x2048) X hS (ix2 ⟨626 * b.val + t.val, hbt⟩ n) (ix3 b t n) ?_
    rw [Shape.rowMajor_val_three, Shape.rowMajor_val_two]
    show (b.val * 626 + t.val) * 2048 + n.val = (626 * b.val + t.val) * 2048 + n.val
    omega

/-- A column of the first half of two transposed matrices set side by side is a row of the first. -/
theorem concat_transpose_left (A B : S1025x2048.Idx → EReal) (hT : S1025x2048.Transposes [1, 0] S2048x1025)
    (hC : Shape.Concatenates [S2048x1025, S2048x1025] S2048x2050 1) (n : Fin 2048) (r : Fin 1025) (h : r.val < 2050) :
    concatenate S2048x2050 1 [⟨S2048x1025, transpose S2048x1025 [1, 0] A hT⟩, ⟨S2048x1025, transpose S2048x1025 [1, 0] B hT⟩] hC
        (ix2 n ⟨r.val, h⟩) = A (ix2 r n) := by
  refine (concatenate_pair_apply_left (t := S2048x2050) (s₁ := S2048x1025) (s₂ := S2048x1025) 1 _ _ hC (ix2 n ⟨r.val, h⟩) rfl (ix2 n r) ?_).trans ?_
  · intro b
    match b with
    | ⟨0, _⟩ => rfl
    | ⟨1, _⟩ => rfl
  · exact transpose_apply (s := S1025x2048) (t := S2048x1025) [1, 0] A hT (ix2 n r) (ix2 r n)
      (fun b => match b with | ⟨0, _⟩ => rfl | ⟨1, _⟩ => rfl)

/-- A column of the second half is a row of the second. -/
theorem concat_transpose_right (A B : S1025x2048.Idx → EReal) (hT : S1025x2048.Transposes [1, 0] S2048x1025)
    (hC : Shape.Concatenates [S2048x1025, S2048x1025] S2048x2050 1) (n : Fin 2048) (r : Fin 1025) (h : 1025 + r.val < 2050) :
    concatenate S2048x2050 1 [⟨S2048x1025, transpose S2048x1025 [1, 0] A hT⟩, ⟨S2048x1025, transpose S2048x1025 [1, 0] B hT⟩] hC
        (ix2 n ⟨1025 + r.val, h⟩) = B (ix2 r n) := by
  refine (concatenate_pair_apply_right (t := S2048x2050) (s₁ := S2048x1025) (s₂ := S2048x1025) 1 _ _ hC (ix2 n ⟨1025 + r.val, h⟩) rfl rfl (ix2 n r) ?_ ?_).trans ?_
  · intro b hb
    match b, hb with
    | ⟨0, _⟩, _ => rfl
    | ⟨1, _⟩, hb => exact absurd rfl hb
  · show r.val + 1025 = 1025 + r.val
    omega
  · exact transpose_apply (s := S1025x2048) (t := S2048x1025) [1, 0] B hT (ix2 n r) (ix2 r n)
      (fun b => match b with | ⟨0, _⟩ => rfl | ⟨1, _⟩ => rfl)

/-- Row `626 b + t` of the left operand is frame (b, t) of the framed signal. -/
theorem lhs_apply (c : Dev nD) (b : Fin 16) (t : Fin 626) (n : Fin 2048) (h : 626 * b.val + t.val < 10240) :
    (V m c main_v18 : S10240x2048.Idx → EReal) (ix2 ⟨626 * b.val + t.val, h⟩ n)
      = (Cert.Stft.frames (m ((c.tc : Thread nD τ).loc main_arg0)) : S16x626x2048.Idx → EReal) (ix3 b t n) := by
  rw [v18_eq]
  exact pad_merge_apply _ _ _ _ _ b t n h

/-- Column `r` of the right operand is row `r` of the first matrix. -/
theorem rhs_apply_re (c : Dev nD) (n : Fin 2048) (r : Fin 1025) (h : r.val < 2050) :
    (V m c main_v21 : S2048x2050.Idx → EReal) (ix2 n ⟨r.val, h⟩)
      = (m ((c.tc : Thread nD τ).loc main_arg1) : S1025x2048.Idx → EReal) (ix2 r n) := by
  rw [v21_eq]
  exact concat_transpose_left _ _ _ _ n r h

/-- Column `1025 + r` of the right operand is row `r` of the second matrix. -/
theorem rhs_apply_im (c : Dev nD) (n : Fin 2048) (r : Fin 1025) (h : 1025 + r.val < 2050) :
    (V m c main_v21 : S2048x2050.Idx → EReal) (ix2 n ⟨1025 + r.val, h⟩)
      = (m ((c.tc : Thread nD τ).loc main_arg2) : S1025x2048.Idx → EReal) (ix2 r n) := by
  rw [v21_eq]
  exact concat_transpose_right _ _ _ _ n r h

/-! ## The host operations after the region -/

/-- The first result: the padding rows cut off, the first half of the columns, the row axis split, a unit axis
    inserted. -/
theorem tail_v28 (W : Valuation τ sig (Elt Ideal)) :
    (StableHlo.after hostOps1 W (Proc.devRef .tc main_v28) : S16x1x626x1025.Idx → EReal)
      = broadcastInDim S16x1x626x1025 ![0, 2, 3] bcast_S16x626x1025_S16x1x626x1025_0_2_3
          (shapeCast S16x626x1025
            (extractStridedSlice S10016x1025 ![0, 0]
              (extractStridedSlice S10016x2050 ![0, 0] (W (Proc.devRef .tc main_v22) : S10240x2050.Idx → EReal)
                slices_S10240x2050_S10016x2050_0_0)
              slices_S10016x2050_S10016x1025_0_0)
            shapeCasts_S10016x1025_S16x626x1025) := by
  dsimp only [hostOps1]
  after_results
  rfl

/-- The second result: the same with the second half of the columns. -/
theorem tail_v29 (W : Valuation τ sig (Elt Ideal)) :
    (StableHlo.after hostOps1 W (Proc.devRef .tc main_v29) : S16x1x626x1025.Idx → EReal)
      = broadcastInDim S16x1x626x1025 ![0, 2, 3] bcast_S16x626x1025_S16x1x626x1025_0_2_3
          (shapeCast S16x626x1025
            (extractStridedSlice S10016x1025 ![0, 1025]
              (extractStridedSlice S10016x2050 ![0, 0] (W (Proc.devRef .tc main_v22) : S10240x2050.Idx → EReal)
                slices_S10240x2050_S10016x2050_0_0)
              slices_S10016x2050_S10016x1025_0_1025)
            shapeCasts_S10016x1025_S16x626x1025) := by
  dsimp only [hostOps1]
  after_results
  rfl

/-- Entry (b, 0, t, r) of a result of the tail is entry `(626 b + t, o + r)` of the product array, `o` the column
    offset of its half: the unit axis is dropped, (b, t, r) and `(626 b + t, r)` have row-major position
    `(626 b + t) · 1025 + r`, and the two slices shift the column by `o` and the row by nothing. -/
theorem tail_read (o : Nat) (X : S10240x2050.Idx → EReal) (hs1 : S10240x2050.Slices ![0, 0] S10016x2050)
    (hs2 : S10016x2050.Slices ![0, o] S10016x1025) (hS : S10016x1025.ShapeCasts S16x626x1025)
    (hB : S16x626x1025.BroadcastsInDim S16x1x626x1025 (![0, 2, 3] : Fin 3 → Fin S16x1x626x1025.rank))
    (b : Fin 16) (z : Fin 1) (t : Fin 626) (r : Fin 1025)
    (h1 : 626 * b.val + t.val < 10240) (h2 : o + r.val < 2050) :
    broadcastInDim S16x1x626x1025 ![0, 2, 3] hB
        (shapeCast S16x626x1025
          (extractStridedSlice S10016x1025 ![0, o] (extractStridedSlice S10016x2050 ![0, 0] X hs1) hs2) hS) (ix4 b z t r)
      = X (ix2 ⟨626 * b.val + t.val, h1⟩ ⟨o + r.val, h2⟩) := by
  have hbt : 626 * b.val + t.val < 10016 := by have := b.isLt; have := t.isLt; omega
  refine (broadcastInDim_apply (s := S16x626x1025) (t := S16x1x626x1025) ![0, 2, 3] hB _ (ix4 b z t r) (ix3 b t r) ?_).trans ?_
  · intro a
    match a with
    | ⟨0, _⟩ => rfl
    | ⟨1, _⟩ => rfl
    | ⟨2, _⟩ => rfl
  refine (shapeCast_apply (s := S10016x1025) (t := S16x626x1025) _ hS (ix3 b t r) (ix2 ⟨626 * b.val + t.val, hbt⟩ r) ?_).trans ?_
  · rw [Shape.rowMajor_val_three, Shape.rowMajor_val_two]
    show (626 * b.val + t.val) * 1025 + r.val = (b.val * 626 + t.val) * 1025 + r.val
    omega
  refine (extractStridedSlice_apply (s := S10016x2050) (t := S10016x1025) ![0, o] _ hs2 (ix2 ⟨626 * b.val + t.val, hbt⟩ r)
    (ix2 ⟨626 * b.val + t.val, hbt⟩ ⟨o + r.val, h2⟩) ?_).trans ?_
  · intro a
    match a with
    | ⟨0, _⟩ => show 626 * b.val + t.val = 0 + (626 * b.val + t.val); omega
    | ⟨1, _⟩ => rfl
  refine extractStridedSlice_apply (s := S10240x2050) (t := S10016x2050) ![0, 0] X hs1 (ix2 ⟨626 * b.val + t.val, hbt⟩ ⟨o + r.val, h2⟩)
    (ix2 ⟨626 * b.val + t.val, h1⟩ ⟨o + r.val, h2⟩) ?_
  intro a
  match a with
  | ⟨0, _⟩ => show 626 * b.val + t.val = 0 + (626 * b.val + t.val); omega
  | ⟨1, _⟩ => show o + r.val = 0 + (o + r.val); omega

/-- Entry (b, 0, t, r) of the first result is entry `(626 b + t, r)` of the product array. -/
theorem tail_re (c : Dev nD) (b : Fin 16) (z : Fin 1) (t : Fin 626) (r : Fin 1025)
    (h1 : 626 * b.val + t.val < 10240) (h2 : r.val < 2050) :
    (Pipeline.afterTail₀ cfgs (dats m) 0 (V0 m) [hostOps1] c main_v28 : S16x1x626x1025.Idx → EReal) (ix4 b z t r)
      = ((dats m 0 c).arrAt 2 cfg0.N : S10240x2050.Idx → EReal) (ix2 ⟨626 * b.val + t.val, h1⟩ ⟨r.val, h2⟩) := by
  unfold Pipeline.afterTail₀
  show (StableHlo.after (hostOps1 (F := Ideal)) _ (Proc.devRef .tc main_v28) : S16x1x626x1025.Idx → EReal) (ix4 b z t r) = _
  rw [tail_v28]
  have h2' : 0 + r.val < 2050 := by omega
  refine (tail_read 0 _ _ _ _ _ b z t r h1 h2').trans ?_
  refine (congrFun (Pipeline.withArrays_arr spec0 launch0.win.arr_inj c _ _ 2) _).trans ?_
  exact congrArg _ (congrArg (ix2 _) (Fin.ext (Nat.zero_add _)))

/-- Entry (b, 0, t, r) of the second result is entry `(626 b + t, 1025 + r)` of the product array. -/
theorem tail_im (c : Dev nD) (b : Fin 16) (z : Fin 1) (t : Fin 626) (r : Fin 1025)
    (h1 : 626 * b.val + t.val < 10240) (h2 : 1025 + r.val < 2050) :
    (Pipeline.afterTail₀ cfgs (dats m) 0 (V0 m) [hostOps1] c main_v29 : S16x1x626x1025.Idx → EReal) (ix4 b z t r)
      = ((dats m 0 c).arrAt 2 cfg0.N : S10240x2050.Idx → EReal) (ix2 ⟨626 * b.val + t.val, h1⟩ ⟨1025 + r.val, h2⟩) := by
  unfold Pipeline.afterTail₀
  show (StableHlo.after (hostOps1 (F := Ideal)) _ (Proc.devRef .tc main_v29) : S16x1x626x1025.Idx → EReal) (ix4 b z t r) = _
  rw [tail_v29]
  refine (tail_read 1025 _ _ _ _ _ b z t r h1 h2).trans ?_
  exact congrFun (Pipeline.withArrays_arr spec0 launch0.win.arr_inj c _ _ 2) _

end Cert.KernelIdeal.StftHost

end
-- ==== Proof.Spec.lean ====
/-
  The mathematics of the certificate, with no program in sight.

  A signal is cut into overlapping frames of 2048 samples; each frame is multiplied against the rows of a
  windowed Fourier matrix `w` (1025 rows of 2048 entries).  Bin `r` of frame `(b, t)` is

      bin fr w b t r = ∑ n < 2048, fr[b, t, n] · w[r, n].

  One program forms this sum in one piece.  The other cuts the 2048 samples into four consecutive runs of 512
  and adds the four partial sums, one after the other, onto a zero: `(((0 + P₀) + P₁) + P₂) + P₃`.
  Over the extended reals addition is commutative and associative with neutral element 0 (no cancellation and
  no distributivity is used), so the two agree whatever the entries are: `chain_eq_sum`.
-/
import Idealize.ShloMosaic.PureOps.Ideal
import Idealize.ShloMosaic.Lib.ValueIdx
import Mathlib.Algebra.BigOperators.Fin
import Mathlib.Logic.Equiv.Fin.Basic

noncomputable section

namespace Cert.Stft

open Idealize.ShloMosaic Idealize.ShloMosaic.ValueIdx

/-- Bin `r` of frame `(b, t)`: the frame's 2048 samples against row `r` of the matrix. -/
def bin (fr : (⟨3, ![16, 626, 2048]⟩ : Shape).Idx → EReal) (w : (⟨2, ![1025, 2048]⟩ : Shape).Idx → EReal)
    (b : Fin 16) (t : Fin 626) (r : Fin 1025) : EReal :=
  ∑ n : Fin 2048, fr (ix3 b t n) * w (ix2 r n)

/-- The whole spectrum, laid out `[batch, 1, frame, bin]`. -/
def spectrum (fr : (⟨3, ![16, 626, 2048]⟩ : Shape).Idx → EReal) (w : (⟨2, ![1025, 2048]⟩ : Shape).Idx → EReal) :
    (⟨4, ![16, 1, 626, 1025]⟩ : Shape).Idx → EReal :=
  fun i => bin fr w (i 0) (i 2) (i 3)

theorem spectrum_apply (fr : (⟨3, ![16, 626, 2048]⟩ : Shape).Idx → EReal) (w : (⟨2, ![1025, 2048]⟩ : Shape).Idx → EReal)
    (b : Fin 16) (z : Fin 1) (t : Fin 626) (r : Fin 1025) :
    spectrum fr w (ix4 b z t r) = bin fr w b t r := rfl

/-- Sample `512 k + j` of 2048, named by its run `k` of four and its place `j` in the run. -/
def at512 (k : Fin 4) (j : Fin 512) : Fin 2048 := ⟨512 * k.val + j.val, by have := k.isLt; have := j.isLt; omega⟩

/-- A sum over 2048 samples is the sum over the four runs of the sums over each run's 512 samples. -/
theorem sum_runs {M : Type*} [AddCommMonoid M] (f : Fin 2048 → M) :
    ∑ n : Fin 2048, f n = ∑ k : Fin 4, ∑ j : Fin 512, f (at512 k j) := by
  rw [← Fintype.sum_prod_type']
  exact (Equiv.sum_comp (finProdFinEquiv : Fin 4 × Fin 512 ≃ Fin (4 * 512)) f).symm.trans
    (Fintype.sum_congr _ _ fun p => congrArg f (Fin.ext (by
      show p.2.val + 512 * p.1.val = 512 * p.1.val + p.2.val
      omega)))

/-- The four partial sums added in turn onto a zero are the one sum over all 2048 samples. -/
theorem chain_eq_sum {M : Type*} [AddCommMonoid M] (f : Fin 2048 → M) :
    (((0 + ∑ j : Fin 512, f (at512 0 j)) + ∑ j : Fin 512, f (at512 1 j)) + ∑ j : Fin 512, f (at512 2 j))
        + ∑ j : Fin 512, f (at512 3 j)
      = ∑ n : Fin 2048, f n := by
  rw [sum_runs f, Fin.sum_univ_four, zero_add]

end Cert.Stft

end
-- ==== Proof.KValue.lean ====
/-
  The kernel program's results, read: both are spectra of the framed signal.

  The region leaves, at entry (r, q) of its output, the chain of the four block products of row `r` of the left
  operand with column `q` of the right operand; that chain is the one sum over all 2048 positions
  (`Cert.Stft.chain_eq_sum`: a regrouping of a finite sum, valid for any entries).  Row `626 b + t` of the left
  operand is frame (b, t), column `r` of the right operand is row `r` of the first matrix and column `1025 + r`
  row `r` of the second; the operations after the region hand entry `(626 b + t, r)` to place (b, 0, t, r) of the
  first result and entry `(626 b + t, 1025 + r)` to the same place of the second.  So place (b, 0, t, r) holds
  `∑ n, frames[b, t, n] · w[r, n]` for the respective matrix `w`.
-/
import proofs.«165752_j29789893165288_1_alg».proof.Proof.KAcc
import proofs.«165752_j29789893165288_1_alg».proof.Proof.KHost
import proofs.«165752_j29789893165288_1_alg».proof.Proof.Spec

noncomputable section

namespace Cert.KernelIdeal.StftValue

open Idealize.ShloMosaic Idealize.ShloMosaic.TcCoe Idealize.ShloMosaic.ValueIdx Idealize.SL.Sem
open Cert.KernelIdeal Cert.KernelIdeal.Gen Cert.KernelIdeal.StftAcc Cert.KernelIdeal.StftHost
open Cert.Stft (frames spectrum bin at512)

variable (m : (ℓ : Loc nD τ sig) → Buf (Elt Ideal) ℓ) (ρ : Dev nD → PrngReg)

/-- Column `512 k + j`, for a run `k` of the four. -/
theorem colOf_eq (k : Fin 4) (j : Fin 512) : colOf k.val j = at512 k j :=
  Fin.ext (by
    show (512 * k.val + j.val) % 2048 = 512 * k.val + j.val
    have := k.isLt; have := j.isLt; omega)

/-- Row `512 (r / 512) + r % 512` is row `r`. -/
theorem rowOf_eq (r : Fin 10240) : rowOf (r.val / 512) ⟨r.val % 512, Nat.mod_lt _ (by decide)⟩ = r :=
  Fin.ext (by
    show (512 * (r.val / 512) + r.val % 512) % 10240 = r.val
    have := r.isLt; omega)

/-- A block product over run `k` is the sum over that run of the products of row `r` and column `q`. -/
theorem prod_eq (c : Dev nD) (r : Fin 10240) (q : Fin 2050) (k : Fin 4) :
    prod m c (r.val / 512) k.val ⟨r.val % 512, Nat.mod_lt _ (by decide)⟩ q
      = ∑ j : Fin 512, lhs m c (ix2 r (at512 k j)) * rhs m c (ix2 (at512 k j) q) := by
  unfold prod
  refine Finset.sum_congr rfl fun j _ => ?_
  rw [rowOf_eq, colOf_eq]

/-- Entry (r, q) of the array the region leaves is the full product of row `r` and column `q`. -/
theorem product_eq_sum (c : Dev nD) (r : Fin 10240) (q : Fin 2050) :
    product m c (ix2 r q) = ∑ n : Fin 2048, lhs m c (ix2 r n) * rhs m c (ix2 n q) := by
  rw [product_apply m c (r.val / 512) ⟨r.val % 512, Nat.mod_lt _ (by decide)⟩ q (ix2 r q)
    (by show r.val = 512 * (r.val / 512) + r.val % 512; omega) rfl]
  show (((0 + prod m c (r.val / 512) (0 : Fin 4).val _ q) + prod m c (r.val / 512) (1 : Fin 4).val _ q)
      + prod m c (r.val / 512) (2 : Fin 4).val _ q) + prod m c (r.val / 512) (3 : Fin 4).val _ q = _
  rw [prod_eq m c r q 0, prod_eq m c r q 1, prod_eq m c r q 2, prod_eq m c r q 3]
  exact Cert.Stft.chain_eq_sum fun n => lhs m c (ix2 r n) * rhs m c (ix2 n q)

/-- Place (b, 0, t, r) of the first result. -/
theorem result_re (c : Dev nD) (b : Fin 16) (z : Fin 1) (t : Fin 626) (r : Fin 1025) :
    (Pipeline.afterTail₀ cfgs (dats m) 0 (V0 m) [hostOps1] c main_v28 : S16x1x626x1025.Idx → EReal) (ix4 b z t r)
      = bin (frames (m ((c.tc : Thread nD τ).loc main_arg0))) (m ((c.tc : Thread nD τ).loc main_arg1)) b t r := by
  have h1 : 626 * b.val + t.val < 10240 := by have := b.isLt; have := t.isLt; omega
  have h2 : r.val < 2050 := by have := r.isLt; omega
  rw [tail_re m c b z t r h1 h2, final m c, product_eq_sum]
  show (_ : EReal) = _
  unfold bin
  refine Finset.sum_congr rfl fun n _ => ?_
  exact congrArg₂ (· * ·) (lhs_apply m c b t n h1) (rhs_apply_re m c n r h2)

/-- Place (b, 0, t, r) of the second result. -/
theorem result_im (c : Dev nD) (b : Fin 16) (z : Fin 1) (t : Fin 626) (r : Fin 1025) :
    (Pipeline.afterTail₀ cfgs (dats m) 0 (V0 m) [hostOps1] c main_v29 : S16x1x626x1025.Idx → EReal) (ix4 b z t r)
      = bin (frames (m ((c.tc : Thread nD τ).loc main_arg0))) (m ((c.tc : Thread nD τ).loc main_arg2)) b t r := by
  have h1 : 626 * b.val + t.val < 10240 := by have := b.isLt; have := t.isLt; omega
  have h2 : 1025 + r.val < 2050 := by have := r.isLt; omega
  rw [tail_im m c b z t r h1 h2, final m c, product_eq_sum]
  show (_ : EReal) = _
  unfold bin
  refine Finset.sum_congr rfl fun n _ => ?_
  exact congrArg₂ (· * ·) (lhs_apply m c b t n h1) (rhs_apply_im m c n r h2)

/-- Every weakly fair execution of the kernel program ends with its two results at the spectra of the framed
    signal against the two matrices, and its arguments unchanged. -/
theorem run : θ_run (defs (F := Ideal)) (onTc (τ := τ) (main (F := Ideal))) ⟨m, fun _ => 0, ρ⟩ (fun r => ∀ c : Dev nD,
      r.2.mem ((c.tc : Thread nD τ).loc main_v28)
          = spectrum (frames (m ((c.tc : Thread nD τ).loc main_arg0))) (m ((c.tc : Thread nD τ).loc main_arg1))
      ∧ r.2.mem ((c.tc : Thread nD τ).loc main_v29)
          = spectrum (frames (m ((c.tc : Thread nD τ).loc main_arg0))) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨((h c).2 main_v28 (Pipeline.mem_restRefs_of main_v28 (by decide) (by decide))).trans (funext fun i => by
        obtain ⟨b, z, t, r, rfl⟩ : ∃ (b : Fin 16) (z : Fin 1) (t : Fin 626) (r : Fin 1025), i = ix4 b z t r :=
          ⟨i 0, i 1, i 2, i 3, eq_ix4 i⟩
        exact result_re m c b z t r),
      ((h c).2 main_v29 (Pipeline.mem_restRefs_of main_v29 (by decide) (by decide))).trans (funext fun i => by
        obtain ⟨b, z, t, r, rfl⟩ : ∃ (b : Fin 16) (z : Fin 1) (t : Fin 626) (r : Fin 1025), i = ix4 b z t r :=
          ⟨i 0, i 1, i 2, i 3, eq_ix4 i⟩
        exact result_im m c b z t r),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.StftValue

end
-- ==== Proof.RefValueRun.lean ====
/-
  The reference program as one straight line of host operations, the call of the padding function unfolded at its
  site, and its run: every buffer ends at the fold of the operations' results over the launch contents.
-/
import proofs.«165752_j29789893165288_1_alg».proof.Proof.Gen.ReferenceIdeal
import Idealize.ShloMosaic.Lib.StableHlo.Run

noncomputable section

namespace Cert.ReferenceIdeal.StftRef

open Cert.ReferenceIdeal Cert.ReferenceIdeal.Facts₀ Idealize.ShloMosaic Idealize.ShloMosaic.TcCoe Idealize.SL.Sem
open Idealize.ShloMosaic.StableHlo

variable {F : FTy → Type} [FloatOps F]

/-- The scalar zero, then the padding function's eight operations over its call's buffers: the two mirrored runs of
    1024 samples and the two concatenations (the two one-sample slices are computed and never used). -/
abbrev opsPad : List (HloOp τ sig (Elt F)) :=
  [ nullary main_c (constantI S_ 32 0#32),
    TRef.unary (.of main_arg0 : TRef sig ⟨S16x320000, .f32⟩) main_call0.v0 (extractStridedSlice S16x1 ![0, 0] · slices_S16x320000_S16x1_0_0),
    TRef.unary (.of main_arg0 : TRef sig ⟨S16x320000, .f32⟩) main_call0.v1 (extractStridedSlice S16x1024 ![0, 1] · slices_S16x320000_S16x1024_0_1),
    TRef.unary main_call0.v1 main_call0.call0.v0 (Host.reverse [1]),
    TRef.binary main_call0.call0.v0 (.of main_arg0 : TRef sig ⟨S16x320000, .f32⟩) main_call0.v3 (fun a b => concatenate S16x321024 1 [⟨S16x1024, a⟩, ⟨S16x320000, b⟩] concatenates_S16x1024_S16x320000_S16x321024_d1),
    TRef.unary main_call0.v3 main_call0.v4 (extractStridedSlice S16x1 ![0, 321023] · slices_S16x321024_S16x1_0_321023),
    TRef.unary main_call0.v3 main_call0.v5 (extractStridedSlice S16x1024 ![0, 319999] · slices_S16x321024_S16x1024_0_319999),
    TRef.unary main_call0.v5 main_call0.call1.v0 (Host.reverse [1]),
    TRef.binary main_call0.v3 main_call0.call1.v0 main_call0.v7 (fun a b => concatenate S16x322048 1 [⟨S16x321024, a⟩, ⟨S16x1024, b⟩] concatenates_S16x321024_S16x1024_S16x322048_d1) ]

/-- The table of sample positions: eighteen integer operations. -/
abbrev opsIdx : List (HloOp τ sig (Elt F)) :=
  [ nullary main_v1 (iotaInDim S626 32 0),
    unary main_v1 main_v2 (broadcastInDim S626x1 ![0] bcast_S626_S626x1_0 : (⟨S626, .i32⟩ : BufTy).Contents (Elt F) → (⟨S626x1, .i32⟩ : BufTy).Contents (Elt F)),
    nullary main_c_0 (constantI S_ 32 512#32),
    unary main_c_0 main_v3 (broadcastInDim S626x1 ![] bcast_S_S626x1 : (⟨S_, .i32⟩ : BufTy).Contents (Elt F) → (⟨S626x1, .i32⟩ : BufTy).Contents (Elt F)),
    binary main_v2 main_v3 main_v4 (muli : (⟨S626x1, .i32⟩ : BufTy).Contents (Elt F) → (⟨S626x1, .i32⟩ : BufTy).Contents (Elt F) → (⟨S626x1, .i32⟩ : BufTy).Contents (Elt F)),
    nullary main_v5 (iotaInDim S2048 32 0),
    unary main_v5 main_v6 (broadcastInDim S1x2048 ![1] bcast_S2048_S1x2048_1 : (⟨S2048, .i32⟩ : BufTy).Contents (Elt F) → (⟨S1x2048, .i32⟩ : BufTy).Contents (Elt F)),
    unary main_v4 main_v7 (broadcastInDim S626x2048 ![0, 1] bcast_S626x1_S626x2048_0_1 : (⟨S626x1, .i32⟩ : BufTy).Contents (Elt F) → (⟨S626x2048, .i32⟩ : BufTy).Contents (Elt F)),
    unary main_v6 main_v8 (broadcastInDim S626x2048 ![0, 1] bcast_S1x2048_S626x2048_0_1 : (⟨S1x2048, .i32⟩ : BufTy).Contents (Elt F) → (⟨S626x2048, .i32⟩ : BufTy).Contents (Elt F)),
    binary main_v7 main_v8 main_v9 (addi : (⟨S626x2048, .i32⟩ : BufTy).Contents (Elt F) → (⟨S626x2048, .i32⟩ : BufTy).Contents (Elt F) → (⟨S626x2048, .i32⟩ : BufTy).Contents (Elt F)),
    nullary main_c_1 (constantI S_ 32 0#32),
    unary main_c_1 main_v10 (broadcastInDim S626x2048 ![] bcast_S_S626x2048 : (⟨S_, .i32⟩ : BufTy).Contents (Elt F) → (⟨S626x2048, .i32⟩ : BufTy).Contents (Elt F)),
    binary main_v9 main_v10 main_v11 (cmpi .slt : (⟨S626x2048, .i32⟩ : BufTy).Contents (Elt F) → (⟨S626x2048, .i32⟩ : BufTy).Contents (Elt F) → (⟨S626x2048, .i1⟩ : BufTy).Contents (Elt F)),
    nullary main_c_2 (constantI S_ 32 322048#32),
    unary main_c_2 main_v12 (broadcastInDim S626x2048 ![] bcast_S_S626x2048 : (⟨S_, .i32⟩ : BufTy).Contents (Elt F) → (⟨S626x2048, .i32⟩ : BufTy).Contents (Elt F)),
    binary main_v9 main_v12 main_v13 (addi : (⟨S626x2048, .i32⟩ : BufTy).Contents (Elt F) → (⟨S626x2048, .i32⟩ : BufTy).Contents (Elt F) → (⟨S626x2048, .i32⟩ : BufTy).Contents (Elt F)),
    ternary main_v11 main_v13 main_v9 main_v14 (select : (⟨S626x2048, .i1⟩ : BufTy).Contents (Elt F) → (⟨S626x2048, .i32⟩ : BufTy).Contents (Elt F) → (⟨S626x2048, .i32⟩ : BufTy).Contents (Elt F) → (⟨S626x2048, .i32⟩ : BufTy).Contents (Elt F)),
    unary main_v14 main_v15 (broadcastInDim S626x2048x1 ![0, 1] bcast_S626x2048_S626x2048x1_0_1 : (⟨S626x2048, .i32⟩ : BufTy).Contents (Elt F) → (⟨S626x2048x1, .i32⟩ : BufTy).Contents (Elt F)) ]

/-- The gather of the padded signal at the table: the framed signal. -/
abbrev opsGather : List (HloOp τ sig (Elt F)) :=
  [ binary main_v0 main_v15 main_v16 ((fun x i => Host.gather gather_S16x322048_S626x2048x1_S16x626x2048_0_1_n_n_1_2_161 x i) : (⟨S16x322048, .f32⟩ : BufTy).Contents (Elt F) → (⟨S626x2048x1, .i32⟩ : BufTy).Contents (Elt F) → (⟨S16x626x2048, .f32⟩ : BufTy).Contents (Elt F)) ]

/-- The two contractions against the matrices and the two insertions of the unit axis. -/
abbrev opsDot : List (HloOp τ sig (Elt F)) :=
  [ binary main_v16 main_arg1 main_v17 ((fun l r => Host.dotGeneral dot_S16x626x2048_S1025x2048_S16x626x1025_2_1_01_0_n_n none l r) : (⟨S16x626x2048, .f32⟩ : BufTy).Contents (Elt F) → (⟨S1025x2048, .f32⟩ : BufTy).Contents (Elt F) → (⟨S16x626x1025, .f32⟩ : BufTy).Contents (Elt F)),
    binary main_v16 main_arg2 main_v18 ((fun l r => Host.dotGeneral dot_S16x626x2048_S1025x2048_S16x626x1025_2_1_01_0_n_n none l r) : (⟨S16x626x2048, .f32⟩ : BufTy).Contents (Elt F) → (⟨S1025x2048, .f32⟩ : BufTy).Contents (Elt F) → (⟨S16x626x1025, .f32⟩ : BufTy).Contents (Elt F)),
    unary main_v17 main_v19 (broadcastInDim S16x1x626x1025 ![0, 2, 3] bcast_S16x626x1025_S16x1x626x1025_0_2_3 : (⟨S16x626x1025, .f32⟩ : BufTy).Contents (Elt F) → (⟨S16x1x626x1025, .f32⟩ : BufTy).Contents (Elt F)),
    unary main_v18 main_v20 (broadcastInDim S16x1x626x1025 ![0, 2, 3] bcast_S16x626x1025_S16x1x626x1025_0_2_3 : (⟨S16x626x1025, .f32⟩ : BufTy).Contents (Elt F) → (⟨S16x1x626x1025, .f32⟩ : BufTy).Contents (Elt F)) ]

/-- @main's thirty-two operations, in order. -/
abbrev ops : List (HloOp τ sig (Elt F)) := opsPad ++ (opsIdx ++ (opsGather ++ opsDot))

-- thirty-two binds re-associated
set_option maxRecDepth 2048 in
/-- @main is that straight line: the two functions' definitions unfolded at their calls, both sides are one chain
    of steps once sequencing is re-associated. -/
theorem main_eq (c : Dev nD) : main (F := F) c = seq ops := by
  simp only [main, fn_pad.body, fn_flip.body, ops, opsPad, opsIdx, opsGather, opsDot, List.cons_append, List.nil_append,
    seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., unary_bufs_sub .., unary_bufs_sub .., binary_bufs_sub .., unary_bufs_sub ..,
    unary_bufs_sub .., unary_bufs_sub .., binary_bufs_sub ..,
    nullary_bufs_sub .., unary_bufs_sub .., nullary_bufs_sub .., unary_bufs_sub .., binary_bufs_sub .., nullary_bufs_sub ..,
    unary_bufs_sub .., unary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub ..,
    binary_bufs_sub .., binary_bufs_sub .., unary_bufs_sub .., unary_bufs_sub ..⟩

/-- From any memory with zero counters every weakly fair execution of @main terminates, and every final state has
    each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.StftRef

end
-- ==== Proof.RefValue.lean ====
/-
  The reference program, run and read: it frames the signal and contracts the 2048 samples of every frame
  against every row of each Fourier matrix in one step, then inserts a unit axis.  Entry (b, 0, t, r) of a result
  is `∑ n < 2048, frames[b, t, n] · w[r, n]`.

  The line of operations is read in four stretches, each over any contents of the buffers before it: the padding
  (the signal mirrored at both ends), the table of sample positions, the gather of the padded signal at the table,
  and the two contractions with their unit axes.  The first three compose to the framed signal; the last is read
  entry by entry, the contraction's index re-named by its one coordinate.
-/
import proofs.«165752_j29789893165288_1_alg».proof.Proof.Gen.ReferenceIdeal
import proofs.«165752_j29789893165288_1_alg».proof.Proof.RefValueRun
import proofs.«165752_j29789893165288_1_alg».proof.Proof.Frames
import proofs.«165752_j29789893165288_1_alg».proof.Proof.Spec
import Idealize.ShloMosaic.Lib.StableHlo.Run
import Idealize.ShloMosaic.Lib.ValueIdx
import Idealize.ShloMosaic.Lib.Pipeline.Value
import Idealize.ShloMosaic.PureOps.Ideal.Laws

noncomputable section

namespace Cert.ReferenceIdeal.StftRef

open Idealize.ShloMosaic Idealize.ShloMosaic.TcCoe Idealize.ShloMosaic.ValueIdx Idealize.SL.Sem
open Idealize.ShloMosaic.StableHlo
open Cert.ReferenceIdeal Cert.ReferenceIdeal.Facts₀

section Read

variable {F : FTy → Type} [FloatOps F]

/-- The fold over two lines run one after the other is the second's fold over the first's. -/
private theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-! ## The last four operations -/

theorem dot_v19 (V : Valuation τ sig (Elt F)) :
    after opsDot V (main_v19 : DevRef τ sig)
      = broadcastInDim S16x1x626x1025 ![0, 2, 3] bcast_S16x626x1025_S16x1x626x1025_0_2_3
          (Host.dotGeneral dot_S16x626x2048_S1025x2048_S16x626x1025_2_1_01_0_n_n none (V (main_v16 : DevRef τ sig)) (V (main_arg1 : DevRef τ sig))) := by
  after_results

theorem dot_v20 (V : Valuation τ sig (Elt F)) :
    after opsDot V (main_v20 : DevRef τ sig)
      = broadcastInDim S16x1x626x1025 ![0, 2, 3] bcast_S16x626x1025_S16x1x626x1025_0_2_3
          (Host.dotGeneral dot_S16x626x2048_S1025x2048_S16x626x1025_2_1_01_0_n_n none (V (main_v16 : DevRef τ sig)) (V (main_arg2 : DevRef τ sig))) := by
  after_results

theorem dot_arg0 (V : Valuation τ sig (Elt F)) : after opsDot V (main_arg0 : DevRef τ sig) = V (main_arg0 : DevRef τ sig) := by
  after_results
theorem dot_arg1 (V : Valuation τ sig (Elt F)) : after opsDot V (main_arg1 : DevRef τ sig) = V (main_arg1 : DevRef τ sig) := by
  after_results
theorem dot_arg2 (V : Valuation τ sig (Elt F)) : after opsDot V (main_arg2 : DevRef τ sig) = V (main_arg2 : DevRef τ sig) := by
  after_results

/-! ## The gather -/

theorem gather_v16 (V : Valuation τ sig (Elt F)) :
    after opsGather V (main_v16 : DevRef τ sig)
      = Host.gather gather_S16x322048_S626x2048x1_S16x626x2048_0_1_n_n_1_2_161 (V (main_v0 : DevRef τ sig)) (V (main_v15 : DevRef τ sig)) := by
  after_results
theorem gather_arg0 (V : Valuation τ sig (Elt F)) : after opsGather V (main_arg0 : DevRef τ sig) = V (main_arg0 : DevRef τ sig) := by
  after_results
theorem gather_arg1 (V : Valuation τ sig (Elt F)) : after opsGather V (main_arg1 : DevRef τ sig) = V (main_arg1 : DevRef τ sig) := by
  after_results
theorem gather_arg2 (V : Valuation τ sig (Elt F)) : after opsGather V (main_arg2 : DevRef τ sig) = V (main_arg2 : DevRef τ sig) := by
  after_results

/-! ## The index table -/

theorem idx_v15 (V : Valuation τ sig (Elt F)) :
    after opsIdx V (main_v15 : DevRef τ sig) = Cert.Stft.frameIdx := by
  after_results
  rfl
theorem idx_v0 (V : Valuation τ sig (Elt F)) : after opsIdx V (main_v0 : DevRef τ sig) = V (main_v0 : DevRef τ sig) := by
  after_results
theorem idx_arg0 (V : Valuation τ sig (Elt F)) : after opsIdx V (main_arg0 : DevRef τ sig) = V (main_arg0 : DevRef τ sig) := by
  after_results
theorem idx_arg1 (V : Valuation τ sig (Elt F)) : after opsIdx V (main_arg1 : DevRef τ sig) = V (main_arg1 : DevRef τ sig) := by
  after_results
theorem idx_arg2 (V : Valuation τ sig (Elt F)) : after opsIdx V (main_arg2 : DevRef τ sig) = V (main_arg2 : DevRef τ sig) := by
  after_results

/-! ## The padding -/

theorem pad_v0 (V : Valuation τ sig (Elt F)) :
    after opsPad V (main_v0 : DevRef τ sig) = Cert.Stft.padded (V (main_arg0 : DevRef τ sig)) := by
  after_results
  rfl
theorem pad_arg0 (V : Valuation τ sig (Elt F)) : after opsPad V (main_arg0 : DevRef τ sig) = V (main_arg0 : DevRef τ sig) := by
  after_results
theorem pad_arg1 (V : Valuation τ sig (Elt F)) : after opsPad V (main_arg1 : DevRef τ sig) = V (main_arg1 : DevRef τ sig) := by
  after_results
theorem pad_arg2 (V : Valuation τ sig (Elt F)) : after opsPad V (main_arg2 : DevRef τ sig) = V (main_arg2 : DevRef τ sig) := by
  after_results

/-! ## The whole line -/

theorem v19_eq (V : Valuation τ sig (Elt F)) :
    after ops V (main_v19 : DevRef τ sig)
      = broadcastInDim S16x1x626x1025 ![0, 2, 3] bcast_S16x626x1025_S16x1x626x1025_0_2_3
          (Host.dotGeneral dot_S16x626x2048_S1025x2048_S16x626x1025_2_1_01_0_n_n none
            (Cert.Stft.frames (V (main_arg0 : DevRef τ sig))) (V (main_arg1 : DevRef τ sig))) := by
  show after (opsPad ++ (opsIdx ++ (opsGather ++ opsDot))) V _ = _
  rw [after_append, after_append, after_append, dot_v19, gather_v16, gather_arg1, idx_v15, idx_v0, idx_arg1, pad_v0, pad_arg1]
  rfl

theorem v20_eq (V : Valuation τ sig (Elt F)) :
    after ops V (main_v20 : DevRef τ sig)
      = broadcastInDim S16x1x626x1025 ![0, 2, 3] bcast_S16x626x1025_S16x1x626x1025_0_2_3
          (Host.dotGeneral dot_S16x626x2048_S1025x2048_S16x626x1025_2_1_01_0_n_n none
            (Cert.Stft.frames (V (main_arg0 : DevRef τ sig))) (V (main_arg2 : DevRef τ sig))) := by
  show after (opsPad ++ (opsIdx ++ (opsGather ++ opsDot))) V _ = _
  rw [after_append, after_append, after_append, dot_v20, gather_v16, gather_arg2, idx_v15, idx_v0, idx_arg2, pad_v0, pad_arg2]
  rfl

theorem arg0_eq (V : Valuation τ sig (Elt F)) : after ops V (main_arg0 : DevRef τ sig) = V (main_arg0 : DevRef τ sig) := by
  show after (opsPad ++ (opsIdx ++ (opsGather ++ opsDot))) V _ = _
  rw [after_append, after_append, after_append, dot_arg0, gather_arg0, idx_arg0, pad_arg0]
theorem arg1_eq (V : Valuation τ sig (Elt F)) : after ops V (main_arg1 : DevRef τ sig) = V (main_arg1 : DevRef τ sig) := by
  show after (opsPad ++ (opsIdx ++ (opsGather ++ opsDot))) V _ = _
  rw [after_append, after_append, after_append, dot_arg1, gather_arg1, idx_arg1, pad_arg1]
theorem arg2_eq (V : Valuation τ sig (Elt F)) : after ops V (main_arg2 : DevRef τ sig) = V (main_arg2 : DevRef τ sig) := by
  show after (opsPad ++ (opsIdx ++ (opsGather ++ opsDot))) V _ = _
  rw [after_append, after_append, after_append, dot_arg2, gather_arg2, idx_arg2, pad_arg2]

end Read

/-! ## The contraction at an index -/

/-- The left operand is read at the result index's batch coordinate … -/
private theorem lhs_0 (i : S16x626x1025.Idx) (q : dot_S16x626x2048_S1025x2048_S16x626x1025_2_1_01_0_n_n.contr.Idx) :
    (dot_S16x626x2048_S1025x2048_S16x626x1025_2_1_01_0_n_n.lhsIdx i q 0).val = (i 0).val := by
  unfold DotDims.lhsIdx
  rw [dif_neg (show ¬(0 : Fin S16x626x2048.rank) ∈ dot_S16x626x2048_S1025x2048_S16x626x1025_2_1_01_0_n_n.lhsBatch by decide),
    dif_pos (show (0 : Fin S16x626x2048.rank) ∈ dot_S16x626x2048_S1025x2048_S16x626x1025_2_1_01_0_n_n.lhsNonContracting by decide)]
  rfl
/-- … at its frame coordinate … -/
private theorem lhs_1 (i : S16x626x1025.Idx) (q : dot_S16x626x2048_S1025x2048_S16x626x1025_2_1_01_0_n_n.contr.Idx) :
    (dot_S16x626x2048_S1025x2048_S16x626x1025_2_1_01_0_n_n.lhsIdx i q 1).val = (i 1).val := by
  unfold DotDims.lhsIdx
  rw [dif_neg (show ¬(1 : Fin S16x626x2048.rank) ∈ dot_S16x626x2048_S1025x2048_S16x626x1025_2_1_01_0_n_n.lhsBatch by decide),
    dif_pos (show (1 : Fin S16x626x2048.rank) ∈ dot_S16x626x2048_S1025x2048_S16x626x1025_2_1_01_0_n_n.lhsNonContracting by decide)]
  rfl
/-- … and at the contraction position on the sample axis. -/
private theorem lhs_2 (i : S16x626x1025.Idx) (q : dot_S16x626x2048_S1025x2048_S16x626x1025_2_1_01_0_n_n.contr.Idx) :
    (dot_S16x626x2048_S1025x2048_S16x626x1025_2_1_01_0_n_n.lhsIdx i q 2).val = (q ⟨0, by decide⟩).val :=
  dot_S16x626x2048_S1025x2048_S16x626x1025_2_1_01_0_n_n.lhsIdx_val_of_single rfl i q
/-- The right operand is read at the result index's bin coordinate … -/
private theorem rhs_0 (i : S16x626x1025.Idx) (q : dot_S16x626x2048_S1025x2048_S16x626x1025_2_1_01_0_n_n.contr.Idx) :
    (dot_S16x626x2048_S1025x2048_S16x626x1025_2_1_01_0_n_n.rhsIdx i q 0).val = (i 2).val := by
  unfold DotDims.rhsIdx
  rw [dif_neg (show ¬(0 : Fin S1025x2048.rank) ∈ dot_S16x626x2048_S1025x2048_S16x626x1025_2_1_01_0_n_n.rhsBatch by decide),
    dif_pos (show (0 : Fin S1025x2048.rank) ∈ dot_S16x626x2048_S1025x2048_S16x626x1025_2_1_01_0_n_n.rhsNonContracting by decide)]
  rfl
/-- … and at the contraction position on the sample axis. -/
private theorem rhs_1 (i : S16x626x1025.Idx) (q : dot_S16x626x2048_S1025x2048_S16x626x1025_2_1_01_0_n_n.contr.Idx) :
    (dot_S16x626x2048_S1025x2048_S16x626x1025_2_1_01_0_n_n.rhsIdx i q 1).val = (q ⟨0, by decide⟩).val :=
  dot_S16x626x2048_S1025x2048_S16x626x1025_2_1_01_0_n_n.rhsIdx_val_of_single rfl i q

/-- Entry (b, t, r) of the contraction is bin `r` of frame (b, t). -/
theorem dot_apply (fr : FVec Ideal S16x626x2048 .f32) (w : FVec Ideal S1025x2048 .f32) (b : Fin 16) (t : Fin 626) (r : Fin 1025) :
    Host.dotGeneral dot_S16x626x2048_S1025x2048_S16x626x1025_2_1_01_0_n_n none fr w (ix3 b t r) = Cert.Stft.bin fr w b t r := by
  simp only [Host.dotGeneral]
  rw [Ideal.dotGeneral_apply, ← Equiv.sum_comp (contrEquiv1 dot_S16x626x2048_S1025x2048_S16x626x1025_2_1_01_0_n_n 2048 rfl rfl).symm]
  show _ = ∑ n : Fin 2048, fr (ix3 b t n) * w (ix2 r n)
  refine Finset.sum_congr rfl fun k _ => ?_
  have hk := contrEquiv1_symm_val dot_S16x626x2048_S1025x2048_S16x626x1025_2_1_01_0_n_n 2048 rfl rfl k
  have el : dot_S16x626x2048_S1025x2048_S16x626x1025_2_1_01_0_n_n.lhsIdx (ix3 b t r)
      ((contrEquiv1 dot_S16x626x2048_S1025x2048_S16x626x1025_2_1_01_0_n_n 2048 rfl rfl).symm k) = ix3 b t k :=
    funext fun a => Fin.ext (by
      match a with
      | ⟨0, _⟩ => exact lhs_0 _ _
      | ⟨1, _⟩ => exact lhs_1 _ _
      | ⟨2, _⟩ => exact (lhs_2 _ _).trans hk)
  have er : dot_S16x626x2048_S1025x2048_S16x626x1025_2_1_01_0_n_n.rhsIdx (ix3 b t r)
      ((contrEquiv1 dot_S16x626x2048_S1025x2048_S16x626x1025_2_1_01_0_n_n 2048 rfl rfl).symm k) = ix2 r k :=
    funext fun a => Fin.ext (by
      match a with
      | ⟨0, _⟩ => exact rhs_0 _ _
      | ⟨1, _⟩ => exact (rhs_1 _ _).trans hk)
  rw [el, er]

/-- The contraction with its unit axis inserted is the spectrum. -/
theorem spectrum_eq (fr : FVec Ideal S16x626x2048 .f32) (w : FVec Ideal S1025x2048 .f32) :
    broadcastInDim S16x1x626x1025 ![0, 2, 3] bcast_S16x626x1025_S16x1x626x1025_0_2_3
        (Host.dotGeneral dot_S16x626x2048_S1025x2048_S16x626x1025_2_1_01_0_n_n none fr w)
      = Cert.Stft.spectrum fr w := by
  funext i
  obtain ⟨b, z, t, r, rfl⟩ : ∃ (b : Fin 16) (z : Fin 1) (t : Fin 626) (r : Fin 1025), i = ix4 b z t r :=
    ⟨i 0, i 1, i 2, i 3, eq_ix4 (n0 := 16) (n1 := 1) (n2 := 626) (n3 := 1025) i⟩
  rw [Cert.Stft.spectrum_apply]
  refine (broadcastInDim_apply _ _ _ _ (ix3 b t r) fun a => ?_).trans (dot_apply fr w b t r)
  match a with
  | ⟨0, _⟩ => rfl
  | ⟨1, _⟩ => rfl
  | ⟨2, _⟩ => rfl

/-! ## The run, read -/

/-- Every weakly fair execution of the reference ends with its two results at the spectra of the framed signal
    against the two matrices, and its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v19)
          = Cert.Stft.spectrum (Cert.Stft.frames (m ((c.tc : Thread nD τ).loc main_arg0))) (m ((c.tc : Thread nD τ).loc main_arg1))
      ∧ r.2.mem ((c.tc : Thread nD τ).loc main_v20)
          = Cert.Stft.spectrum (Cert.Stft.frames (m ((c.tc : Thread nD τ).loc main_arg0))) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run (defs (F := Ideal)) _ _).mono (fun _ h c =>
      ⟨(h c main_v19).trans ((v19_eq (launchContents m c)).trans (spectrum_eq _ _)),
        (h c main_v20).trans ((v20_eq (launchContents m c)).trans (spectrum_eq _ _)),
        (h c main_arg0).trans (arg0_eq (launchContents m c)),
        (h c main_arg1).trans (arg1_eq (launchContents m c)),
        (h c main_arg2).trans (arg2_eq (launchContents m c))⟩)
    (run_main m ρ)

end Cert.ReferenceIdeal.StftRef

end
-- ==== Proof.lean ====
/-
  The certificate: a short-time Fourier transform computed two ways.

  Both programs mirror-pad a batch of 16 signals and cut each into 626 overlapping frames of 2048 samples
  (`Cert.Stft.frames`, the same operations in both).  The reference contracts every frame against the 1025 rows
  of each of two windowed Fourier matrices in one step.  The kernel program merges batch and frame into one
  row axis, pads it with zero rows up to a multiple of 512, sets the two transposed matrices side by side, and
  multiplies block by block — four runs of 512 samples accumulated onto a zero per row block — then drops the
  padding rows, splits the columns back into the two results and the rows back into (batch, frame).

  Over the extended reals the four partial sums added in turn onto zero are the one sum over all 2048 samples
  (only commutativity and associativity of addition are used, so no finiteness of the inputs is needed), the
  padding rows never reach a result, and the re-layouts only rename positions: both programs end with place
  (b, 0, t, r) of each result at `∑ n < 2048, frames[b, t, n] · w[r, n]` for the respective matrix `w`
  (`Cert.Stft.spectrum`).

  The three frames: the two kernel programs' are the generated frame certificates; the reference's is its run
  with the results dropped.  The idealization rewrote no operation, so `preserves` has nothing to state.
-/
import proofs.«165752_j29789893165288_1_alg».proof.Defs
import proofs.«165752_j29789893165288_1_alg».proof.Proof.Gen.Kernel
import proofs.«165752_j29789893165288_1_alg».proof.Proof.Gen.Kernel.Frame
import proofs.«165752_j29789893165288_1_alg».proof.Proof.Gen.KernelIdeal
import proofs.«165752_j29789893165288_1_alg».proof.Proof.Gen.KernelIdeal.Frame
import proofs.«165752_j29789893165288_1_alg».proof.Proof.Gen.ReferenceIdeal
import proofs.«165752_j29789893165288_1_alg».proof.Proof.Gen.Pre_finite_inputs
import proofs.«165752_j29789893165288_1_alg».proof.Proof.KValue
import proofs.«165752_j29789893165288_1_alg».proof.Proof.RefValue
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => (θ_run Cert.ReferenceIdeal.defs _ _).mono (fun _ h c => (h c).2.2) (Cert.ReferenceIdeal.StftRef.run m ρ),
    trivial,
    fun m ρ m' ρ' _ hagree =>
      ⟨fun c => Cert.Stft.spectrum
          (Cert.Stft.frames (m ((c.tc : Thread Cert.KernelIdeal.nD Cert.KernelIdeal.τ).loc Cert.KernelIdeal.main_arg0)))
          (m ((c.tc : Thread Cert.KernelIdeal.nD Cert.KernelIdeal.τ).loc Cert.KernelIdeal.main_arg1)),
        fun c => Cert.Stft.spectrum
          (Cert.Stft.frames (m ((c.tc : Thread Cert.KernelIdeal.nD Cert.KernelIdeal.τ).loc Cert.KernelIdeal.main_arg0)))
          (m ((c.tc : Thread Cert.KernelIdeal.nD Cert.KernelIdeal.τ).loc Cert.KernelIdeal.main_arg2)),
        Cert.KernelIdeal.StftValue.run m ρ,
        (θ_run Cert.ReferenceIdeal.defs _ _).mono
          (fun _ h c =>
            ⟨by rw [(h c).1, (hagree c).1, (hagree c).2.1],
              by rw [(h c).2.1, (hagree c).1, (hagree c).2.2],
              (h c).2.2.1, (h c).2.2.2.1, (h c).2.2.2.2⟩)
          (Cert.ReferenceIdeal.StftRef.run m' ρ')⟩⟩

end Cert.Proof

end
